-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : FVec F S50000x3 .f32) (main_arg2 : IVec S2x600000 32) (main_arg3 : FVec F S257x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x3 : Shape := ⟨2, ![600000, 3]⟩
abbrev S1x128 : Shape := ⟨2, ![1, 128]⟩
abbrev S1x1 : Shape := ⟨2, ![1, 1]⟩
abbrev S3000x128 : Shape := ⟨2, ![3000, 128]⟩
abbrev S3000x3 : Shape := ⟨2, ![3000, 3]⟩
abbrev S3000 : Shape := ⟨1, ![3000]⟩
abbrev S3000x1 : Shape := ⟨2, ![3000, 1]⟩
abbrev S5000x128 : Shape := ⟨2, ![5000, 128]⟩

abbrev nBuf : Space → Nat
  | .hbm => 79
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x3, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x3, .f32⟩
  | .hbm, ⟨55, _⟩ => ⟨S600000x3, .f32⟩
  | .hbm, ⟨56, _⟩ => ⟨S128x128, .f32⟩
  | .hbm, ⟨57, _⟩ => ⟨S128x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x1, .f32⟩
  | .hbm, ⟨63, _⟩ => ⟨S600000x128, .f32⟩
  | .hbm, ⟨64, _⟩ => ⟨S600000x3, .f32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S_, .f32⟩
  | .hbm, ⟨70, _⟩ => ⟨S50000x3, .f32⟩
  | .hbm, ⟨71, _⟩ => ⟨S600000x1, .i32⟩
  | .hbm, ⟨72, _⟩ => ⟨S50000x3, .f32⟩
  | .hbm, ⟨73, _⟩ => ⟨S50000x3, .f32⟩
  | .hbm, ⟨74, _⟩ => ⟨S128x128, .f32⟩
  | .hbm, ⟨75, _⟩ => ⟨S128x128, .f32⟩
  | .hbm, ⟨76, _⟩ => ⟨S1x128, .f32⟩
  | .hbm, ⟨77, _⟩ => ⟨S1x128, .f32⟩
  | .hbm, ⟨78, _⟩ => ⟨S50000x128, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S3000x3, .f32⟩
  | .local _ .vmem, ⟨5, _⟩ => ⟨S3000x3, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S3000x128, .f32⟩
  | .local _ .vmem, ⟨17, _⟩ => ⟨S3000x128, .f32⟩
  | .local _ .vmem, ⟨18, _⟩ => ⟨S3000x3, .f32⟩
  | .local _ .vmem, ⟨19, _⟩ => ⟨S3000x3, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40_0 : Ref sig .tc := ⟨.hbm, 63, rfl⟩
abbrev main_v40_1 : Ref sig .tc := ⟨.hbm, 64, rfl⟩
abbrev main_cst : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem7_1 : DmaSem sig := 30

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3000x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S1_S1x1 : S1.ShapeCasts S1x1
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  inb_S3000x3_S3000x3_0_0 : ∀ a, (![0, 0] : Fin 2 → Nat) a + S3000x3.size a ≤ S3000x3.size a
  h_S3000x3 : 0 < S3000x3.numel
  shapeCasts_S3000x3_S3000x3 : S3000x3.ShapeCasts S3000x3
  reduces_S3000x3_S3000 : S3000x3.Reduces [1] S3000
  shapeCasts_S3000_S3000x1 : S3000.ShapeCasts S3000x1
  broadcasts_S3000x1_S3000x3 : S3000x1.Broadcasts S3000x3
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S3000x1_S3000x128 : S3000x1.Broadcasts S3000x128
  broadcasts_S1x128_S3000x128 : S1x128.Broadcasts S3000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3000x1 : S1x1.Broadcasts S3000x1
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  gather_S50000x3_S600000x1_S600000x3_1_0_n_n_0_1_13_wf : GatherDims.WF S50000x3 S600000x1 S600000x3 [1] [0] [] [0] [] 1 ![1, 3]
  dot_S3000x128_S128x128_S3000x128_1_0_0_1_n_n_wf : DotDims.WF S3000x128 S128x128 S3000x128 [1] [0] [0] [1] [] []
  dot_S3000x128_S128x1_S3000x1_1_0_0_1_n_n_wf : DotDims.WF S3000x128 S128x1 S3000x1 [1] [0] [0] [1] [] []
  scatter_S50000x128_S600000x1_S600000x128_1_0_0_1_wf : ScatterDims.WF S50000x128 S600000x1 S600000x128 [1] [0] [0] 1
  scatter_S50000x3_S600000x1_S600000x3_1_0_0_1_wf : ScatterDims.WF S50000x3 S600000x1 S600000x3 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S600000x128.size a
  hwx0_0 : ∀ i : grid0.Coords, EltTy.bits .f32 = 32 ∨ (Rect.block (s := S600000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S600000x128.size a
  hwx0_1 : ∀ i : grid0.Coords, EltTy.bits .f32 = 32 ∨ (Rect.block (s := S600000x128) S3000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x3.size a ≤ S600000x3.size a
  hwx0_2 : ∀ i : grid0.Coords, EltTy.bits .f32 = 32 ∨ (Rect.block (s := S600000x3) S3000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3000x128.size a ≤ S600000x128.size a
  hwx0_13 : ∀ i : grid0.Coords, EltTy.bits .f32 = 32 ∨ (Rect.block (s := S600000x128) S3000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S3000x3.size a ≤ S600000x3.size a
  hwx0_14 : ∀ i : grid0.Coords, EltTy.bits .f32 = 32 ∨ (Rect.block (s := S600000x3) S3000x3.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def dot_S3000x128_S128x1_S3000x1_1_0_0_1_n_n : DotDims S3000x128 S128x1 S3000x1 where
  lhsContracting := [1]
  rhsContracting := [0]
  lhsNonContracting := [0]
  rhsNonContracting := [1]
  lhsBatch := []
  rhsBatch := []
  wf := dot_S3000x128_S128x1_S3000x1_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x3_S600000x1_S600000x3_1_0_0_1 : ScatterDims S50000x3 S600000x1 S600000x3 where
  updateWindowDims := [1]
  insertedWindowDims := [0]
  scatterDimsToOperandDims := [0]
  indexVectorDim := 1
  wf := scatter_S50000x3_S600000x1_S600000x3_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S3000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v39) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v40_0) S3000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v40_1) S3000x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S600000x257 : Shape := ⟨2, ![600000, 257]⟩
abbrev S1x128 : Shape := ⟨2, ![1, 128]⟩
abbrev S1x1 : Shape := ⟨2, ![1, 1]⟩
abbrev S50000x256 : Shape := ⟨2, ![50000, 256]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S50000x3, .f32⟩
  | 2 => ⟨S2x600000, .i32⟩
  | 3 => ⟨S257x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S256x128, .f32⟩
  | 12 => ⟨S128, .f32⟩
  | 13 => ⟨S128x128, .f32⟩
  | 14 => ⟨S128, .f32⟩
  | 15 => ⟨S1x600000, .i32⟩
  | 16 => ⟨S600000, .i32⟩
  | 17 => ⟨S1x600000, .i32⟩
  | 18 => ⟨S600000, .i32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x3, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x3, .f32⟩
  | 37 => ⟨S600000x3, .f32⟩
  | 38 => ⟨S600000x3, .f32⟩
  | 39 => ⟨S_, .f32⟩
  | 40 => ⟨S600000, .f32⟩
  | 41 => ⟨S600000x1, .f32⟩
  | 42 => ⟨S600000x1, .f32⟩
  | 43 => ⟨S_, .f32⟩
  | 44 => ⟨S600000x1, .f32⟩
  | 45 => ⟨S600000x1, .f32⟩
  | 46 => ⟨S600000x3, .f32⟩
  | 47 => ⟨S600000x3, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S600000x257, .f32⟩
  | 67 => ⟨S600000x128, .f32⟩
  | 68 => ⟨S1x128, .f32⟩
  | 69 => ⟨S600000x128, .f32⟩
  | 70 => ⟨S600000x128, .f32⟩
  | 71 => ⟨S600000x128, .f32⟩
  | 72 => ⟨S600000x128, .f32⟩
  | 73 => ⟨S_, .f32⟩
  | 74 => ⟨S600000x128, .f32⟩
  | 75 => ⟨S600000x128, .f32⟩
  | 76 => ⟨S_, .f32⟩
  | 77 => ⟨S600000x128, .f32⟩
  | 78 => ⟨S600000x128, .f32⟩
  | 79 => ⟨S600000x128, .f32⟩
  | 80 => ⟨S600000x128, .f32⟩
  | 81 => ⟨S1x128, .f32⟩
  | 82 => ⟨S600000x128, .f32⟩
  | 83 => ⟨S600000x128, .f32⟩
  | 84 => ⟨S600000x128, .f32⟩
  | 85 => ⟨S600000x128, .f32⟩
  | 86 => ⟨S_, .f32⟩
  | 87 => ⟨S600000x128, .f32⟩
  | 88 => ⟨S600000x128, .f32⟩
  | 89 => ⟨S_, .f32⟩
  | 90 => ⟨S600000x128, .f32⟩
  | 91 => ⟨S600000x128, .f32⟩
  | 92 => ⟨S600000x128, .f32⟩
  | 93 => ⟨S600000x128, .f32⟩
  | 94 => ⟨S1x128, .f32⟩
  | 95 => ⟨S600000x128, .f32⟩
  | 96 => ⟨S600000x128, .f32⟩
  | 97 => ⟨S600000x128, .f32⟩
  | 98 => ⟨S600000x128, .f32⟩
  | 99 => ⟨S_, .f32⟩
  | 100 => ⟨S600000x128, .f32⟩
  | 101 => ⟨S600000x128, .f32⟩
  | 102 => ⟨S_, .f32⟩
  | 103 => ⟨S600000x128, .f32⟩
  | 104 => ⟨S600000x128, .f32⟩
  | 105 => ⟨S600000x128, .f32⟩
  | 106 => ⟨S600000x1, .f32⟩
  | 107 => ⟨S1x1, .f32⟩
  | 108 => ⟨S600000x1, .f32⟩
  | 109 => ⟨S600000x1, .f32⟩
  | 110 => ⟨S600000x3, .f32⟩
  | 111 => ⟨S600000x3, .f32⟩
  | 112 => ⟨S_, .f32⟩
  | 113 => ⟨S50000x3, .f32⟩
  | 114 => ⟨S600000x1, .i32⟩
  | 115 => ⟨S50000x3, .f32⟩
  | 116 => ⟨S50000x3, .f32⟩
  | 117 => ⟨S_, .f32⟩
  | 118 => ⟨S50000x128, .f32⟩
  | 119 => ⟨S600000x1, .i32⟩
  | 120 => ⟨S50000x128, .f32⟩
  | 121 => ⟨S50000x256, .f32⟩
  | 122 => ⟨S50000x128, .f32⟩
  | 123 => ⟨S1x128, .f32⟩
  | 124 => ⟨S50000x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call2_v0 : Ref sig .tc := ⟨.hbm, 97, rfl⟩
abbrev main_call2_v1 : Ref sig .tc := ⟨.hbm, 98, rfl⟩
abbrev main_call2_cst : Ref sig .tc := ⟨.hbm, 99, rfl⟩
abbrev main_call2_v2 : Ref sig .tc := ⟨.hbm, 100, rfl⟩
abbrev main_call2_v3 : Ref sig .tc := ⟨.hbm, 101, rfl⟩
abbrev main_call2_cst_0 : Ref sig .tc := ⟨.hbm, 102, rfl⟩
abbrev main_call2_v4 : Ref sig .tc := ⟨.hbm, 103, rfl⟩
abbrev main_call2_v5 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_8 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_9 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_call3_v0 : Ref sig .tc := ⟨.hbm, 126, rfl⟩
abbrev main_call3_v1 : Ref sig .tc := ⟨.hbm, 127, rfl⟩
abbrev main_call3_cst : Ref sig .tc := ⟨.hbm, 128, rfl⟩
abbrev main_call3_v2 : Ref sig .tc := ⟨.hbm, 129, rfl⟩
abbrev main_call3_v3 : Ref sig .tc := ⟨.hbm, 130, rfl⟩
abbrev main_call3_cst_0 : Ref sig .tc := ⟨.hbm, 131, rfl⟩
abbrev main_call3_v4 : Ref sig .tc := ⟨.hbm, 132, rfl⟩
abbrev main_call3_v5 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  bcast_S_S600000x1 : S_.BroadcastsInDim S600000x1 (![] : Fin 0 → Fin S600000x1.rank)
  bcast_S600000x1_S600000x3_0_1 : S600000x1.BroadcastsInDim S600000x3 (![0, 1] : Fin 2 → Fin S600000x3.rank)
  concatenates_S600000x128_S600000x128_S600000x1_S600000x257_d1 : Shape.Concatenates [S600000x128, S600000x128, S600000x1] S600000x257 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S50000x3 : S_.BroadcastsInDim S50000x3 (![] : Fin 0 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S600000x257_S257x128_S600000x128_1_0_0_1_n_n_wf : DotDims.WF S600000x257 S257x128 S600000x128 [1] [0] [0] [1] [] []
  dot_S600000x128_S128x128_S600000x128_1_0_0_1_n_n_wf : DotDims.WF S600000x128 S128x128 S600000x128 [1] [0] [0] [1] [] []
  dot_S600000x128_S128x1_S600000x1_1_0_0_1_n_n_wf : DotDims.WF S600000x128 S128x1 S600000x1 [1] [0] [0] [1] [] []
  scatter_S50000x3_S600000x1_S600000x3_1_0_0_1_wf : ScatterDims.WF S50000x3 S600000x1 S600000x3 [1] [0] [0] 1
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x257_S257x128_S600000x128_1_0_0_1_n_n : DotDims S600000x257 S257x128 S600000x128 where
  lhsContracting := [1]
  rhsContracting := [0]
  lhsNonContracting := [0]
  rhsNonContracting := [1]
  lhsBatch := []
  rhsBatch := []
  wf := dot_S600000x257_S257x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S50000x3_S600000x1_S600000x3_1_0_0_1 : ScatterDims S50000x3 S600000x1 S600000x3 where
  updateWindowDims := [1]
  insertedWindowDims := [0]
  scatterDimsToOperandDims := [0]
  indexVectorDim := 1
  wf := scatter_S50000x3_S600000x1_S600000x3_1_0_0_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibNary3.lean ====
/-
  A host operation that joins THREE operand buffers into a result (`StableHlo.nary` over a literal family of three
  references — a three-piece concatenate): what it leaves at its result buffer, with each operand's contents read AT ITS
  OWN REFERENCE. Under the general statement's binder `fun k => F (xs k)` the reference `xs k` is no literal, so nothing
  more can be read there; with the three contents spelt out one by one the reading of a line of operations goes on
  through the operands.
-/
import Idealize.ShloMosaic.Lib.StableHlo.Run

noncomputable section

namespace Idealize.ShloMosaic.StableHlo

variable {nD : Nat} {τ : Topo} {sig : RefSig} {Val : EltTy → Type}
variable {x a b y : Ref sig .tc}

/-- `nary` over a literal family of three references: the result buffer holds the operation's function of the three
    operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for one simplifier pass over a whole line of operations. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.RefFold.lean ====
/-
  The reference's run, read stage by stage.

  The reference is a straight line of 125 host operations; what a buffer holds at the end is the fold of the
  operations' results over the launch contents. The line is cut before each of its two joins of computed arrays (the
  join of the two gathered feature arrays with the squared lengths, and the join of the node features with the
  aggregated messages): within a piece every operand is read back operation by operation, and at a cut the contents so
  far are a single valuation, whose values at the few buffers the next piece reads are the stages already read. The
  two results are then the stages `val_main_v80` and `val_main_v66` of the arguments, and the arguments are unchanged.
-/
import proofs.«168844_j68195490726193_1_alg».proof.Proof.RefRead
import proofs.«168844_j68195490726193_1_alg».proof.Proof.LibNary3
import Idealize.ShloMosaic.Lib.Pipeline.Frame

set_option maxRecDepth 8192

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The three pieces of the line -/

/-- The operations before the first join: the index rows, the four gathers, the differences, lengths and unit differences. -/
abbrev opsA : List (HloOp τ sig (Elt F)) :=
  [ unary main_arg2 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg2 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg1 main_v9 main_v10 ((fun x i => Host.gather gather_S50000x3_S600000x1_S600000x3_1_0_n_n_0_1_13 x i) : (⟨S50000x3, .f32⟩ : BufTy).Contents (Elt F) → (⟨S600000x1, .i32⟩ : BufTy).Contents (Elt F) → (⟨S600000x3, .f32⟩ : BufTy).Contents (Elt F)),
    nullary main_c_1 (constantI S_ 32 0#32),
    unary main_c_1 main_v11 (broadcastInDim S600000 ![] bcast_S_S600000 : (⟨S_, .i32⟩ : BufTy).Contents (Elt F) → (⟨S600000, .i32⟩ : BufTy).Contents (Elt F)),
    binary main_v3 main_v11 main_v12 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v13 (broadcastInDim S600000 ![] bcast_S_S600000 : (⟨S_, .i32⟩ : BufTy).Contents (Elt F) → (⟨S600000, .i32⟩ : BufTy).Contents (Elt F)),
    binary main_v3 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_v3 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_arg1 main_v16 main_v17 ((fun x i => Host.gather gather_S50000x3_S600000x1_S600000x3_1_0_n_n_0_1_13 x i) : (⟨S50000x3, .f32⟩ : BufTy).Contents (Elt F) → (⟨S600000x1, .i32⟩ : BufTy).Contents (Elt F) → (⟨S600000x3, .f32⟩ : BufTy).Contents (Elt F)),
    binary main_v10 main_v17 main_v18 (subf : (⟨S600000x3, .f32⟩ : BufTy).Contents (Elt F) → (⟨S600000x3, .f32⟩ : BufTy).Contents (Elt F) → (⟨S600000x3, .f32⟩ : BufTy).Contents (Elt F)),
    binary main_v18 main_v18 main_v19 (mulf : (⟨S600000x3, .f32⟩ : BufTy).Contents (Elt F) → (⟨S600000x3, .f32⟩ : BufTy).Contents (Elt F) → (⟨S600000x3, .f32⟩ : BufTy).Contents (Elt F)),
    nullary main_cst (constant S_ .f32 0x00000000#32),
    binary main_v19 main_cst main_v20 ((fun x v => Host.reduceAdd x v reducesTo_S600000x3_S600000_d1 h_S_) : (⟨S600000x3, .f32⟩ : BufTy).Contents (Elt F) → (⟨S_, .f32⟩ : BufTy).Contents (Elt F) → (⟨S600000, .f32⟩ : BufTy).Contents (Elt F)),
    unary main_v20 main_v21 (broadcastInDim S600000x1 ![0] bcast_S600000_S600000x1_0 : (⟨S600000, .f32⟩ : BufTy).Contents (Elt F) → (⟨S600000x1, .f32⟩ : BufTy).Contents (Elt F)),
    unary main_v21 main_v22 (Host.sqrt : (⟨S600000x1, .f32⟩ : BufTy).Contents (Elt F) → (⟨S600000x1, .f32⟩ : BufTy).Contents (Elt F)),
    nullary main_cst_3 (constant S_ .f32 0x322BCC77#32),
    unary main_cst_3 main_v23 (broadcastInDim S600000x1 ![] bcast_S_S600000x1 : (⟨S_, .f32⟩ : BufTy).Contents (Elt F) → (⟨S600000x1, .f32⟩ : BufTy).Contents (Elt F)),
    binary main_v22 main_v23 main_v24 (addf : (⟨S600000x1, .f32⟩ : BufTy).Contents (Elt F) → (⟨S600000x1, .f32⟩ : BufTy).Contents (Elt F) → (⟨S600000x1, .f32⟩ : BufTy).Contents (Elt F)),
    unary main_v24 main_v25 (broadcastInDim S600000x3 ![0, 1] bcast_S600000x1_S600000x3_0_1 : (⟨S600000x1, .f32⟩ : BufTy).Contents (Elt F) → (⟨S600000x3, .f32⟩ : BufTy).Contents (Elt F)),
    binary main_v18 main_v25 main_v26 (Host.divf : (⟨S600000x3, .f32⟩ : BufTy).Contents (Elt F) → (⟨S600000x3, .f32⟩ : BufTy).Contents (Elt F) → (⟨S600000x3, .f32⟩ : BufTy).Contents (Elt F)),
    nullary main_c_4 (constantI S_ 32 0#32),
    unary main_c_4 main_v27 (broadcastInDim S600000 ![] bcast_S_S600000 : (⟨S_, .i32⟩ : BufTy).Contents (Elt F) → (⟨S600000, .i32⟩ : BufTy).Contents (Elt F)),
    binary main_v1 main_v27 main_v28 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v29 (broadcastInDim S600000 ![] bcast_S_S600000 : (⟨S_, .i32⟩ : BufTy).Contents (Elt F) → (⟨S600000, .i32⟩ : BufTy).Contents (Elt F)),
    binary main_v1 main_v29 main_v30 (addi : (⟨S600000, .i32⟩ : BufTy).Contents (Elt F) → (⟨S600000, .i32⟩ : BufTy).Contents (Elt F) → (⟨S600000, .i32⟩ : BufTy).Contents (Elt F)),
    ternary main_v28 main_v30 main_v1 main_v31 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v31 main_v32 (broadcastInDim S600000x1 ![0] bcast_S600000_S600000x1_0 : (⟨S600000, .i32⟩ : BufTy).Contents (Elt F) → (⟨S600000x1, .i32⟩ : BufTy).Contents (Elt F)),
    binary main_arg0 main_v32 main_v33 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_6 (constantI S_ 32 0#32),
    unary main_c_6 main_v34 (broadcastInDim S600000 ![] bcast_S_S600000 : (⟨S_, .i32⟩ : BufTy).Contents (Elt F) → (⟨S600000, .i32⟩ : BufTy).Contents (Elt F)),
    binary main_v3 main_v34 main_v35 (cmpi .slt : (⟨S600000, .i32⟩ : BufTy).Contents (Elt F) → (⟨S600000, .i32⟩ : BufTy).Contents (Elt F) → (⟨S600000, .i1⟩ : BufTy).Contents (Elt F)),
    nullary main_c_7 (constantI S_ 32 50000#32),
    unary main_c_7 main_v36 (broadcastInDim S600000 ![] bcast_S_S600000 : (⟨S_, .i32⟩ : BufTy).Contents (Elt F) → (⟨S600000, .i32⟩ : BufTy).Contents (Elt F)),
    binary main_v3 main_v36 main_v37 (addi : (⟨S600000, .i32⟩ : BufTy).Contents (Elt F) → (⟨S600000, .i32⟩ : BufTy).Contents (Elt F) → (⟨S600000, .i32⟩ : BufTy).Contents (Elt F)),
    ternary main_v35 main_v37 main_v3 main_v38 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v38 main_v39 (broadcastInDim S600000x1 ![0] bcast_S600000_S600000x1_0 : (⟨S600000, .i32⟩ : BufTy).Contents (Elt F) → (⟨S600000x1, .i32⟩ : BufTy).Contents (Elt F)),
    binary main_arg0 main_v39 main_v40 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

/-- From the first join to the second: the edge layers, the gate, the weighted differences, the two scatter-adds and the second result. -/
abbrev opsB : List (HloOp τ sig (Elt F)) :=
  [ nary ![main_v33, main_v40, main_v21] main_v41 (fun u => concatenate S600000x257 1 [⟨S600000x128, u 0⟩, ⟨S600000x128, u 1⟩, ⟨S600000x1, u 2⟩] concatenates_S600000x128_S600000x128_S600000x1_S600000x257_d1),
    binary main_v41 main_arg3 main_v42 ((fun l r => Host.dotGeneral dot_S600000x257_S257x128_S600000x128_1_0_0_1_n_n none l r) : (⟨S600000x257, .f32⟩ : BufTy).Contents (Elt F) → (⟨S257x128, .f32⟩ : BufTy).Contents (Elt F) → (⟨S600000x128, .f32⟩ : BufTy).Contents (Elt F)),
    unary main_arg4 main_v43 (broadcastInDim S1x128 ![1] bcast_S128_S1x128_1 : (⟨S128, .f32⟩ : BufTy).Contents (Elt F) → (⟨S1x128, .f32⟩ : BufTy).Contents (Elt F)),
    unary main_v43 main_v44 (broadcastInDim S600000x128 ![0, 1] bcast_S1x128_S600000x128_0_1 : (⟨S1x128, .f32⟩ : BufTy).Contents (Elt F) → (⟨S600000x128, .f32⟩ : BufTy).Contents (Elt F)),
    binary main_v42 main_v44 main_v45 (addf : (⟨S600000x128, .f32⟩ : BufTy).Contents (Elt F) → (⟨S600000x128, .f32⟩ : BufTy).Contents (Elt F) → (⟨S600000x128, .f32⟩ : BufTy).Contents (Elt F)),
    TRef.unary (TRef.of (T := ⟨S600000x128, .f32⟩) main_v45) (TRef.of (T := ⟨S600000x128, .f32⟩) main_call0_v0) Host.negf,
    TRef.unary (TRef.of (T := ⟨S600000x128, .f32⟩) main_call0_v0) (TRef.of (T := ⟨S600000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S600000x128, .f32⟩) main_call0_v2) (broadcastInDim S600000x128 ![] bcast_S_S600000x128),
    TRef.binary (TRef.of (T := ⟨S600000x128, .f32⟩) main_call0_v2) (TRef.of (T := ⟨S600000x128, .f32⟩) main_call0_v1) (TRef.of (T := ⟨S600000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S600000x128, .f32⟩) main_call0_v4) (broadcastInDim S600000x128 ![] bcast_S_S600000x128),
    TRef.binary (TRef.of (T := ⟨S600000x128, .f32⟩) main_call0_v4) (TRef.of (T := ⟨S600000x128, .f32⟩) main_call0_v3) (TRef.of (T := ⟨S600000x128, .f32⟩) main_call0_v5) Host.divf,
    TRef.binary (TRef.of (T := ⟨S600000x128, .f32⟩) main_v45) (TRef.of (T := ⟨S600000x128, .f32⟩) main_call0_v5) (TRef.of (T := ⟨S600000x128, .f32⟩) main_v46) mulf,
    binary main_v46 main_arg5 main_v47 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg6 main_v48 (broadcastInDim S1x128 ![1] bcast_S128_S1x128_1 : (⟨S128, .f32⟩ : BufTy).Contents (Elt F) → (⟨S1x128, .f32⟩ : BufTy).Contents (Elt F)),
    unary main_v48 main_v49 (broadcastInDim S600000x128 ![0, 1] bcast_S1x128_S600000x128_0_1 : (⟨S1x128, .f32⟩ : BufTy).Contents (Elt F) → (⟨S600000x128, .f32⟩ : BufTy).Contents (Elt F)),
    binary main_v47 main_v49 main_v50 (addf : (⟨S600000x128, .f32⟩ : BufTy).Contents (Elt F) → (⟨S600000x128, .f32⟩ : BufTy).Contents (Elt F) → (⟨S600000x128, .f32⟩ : BufTy).Contents (Elt F)),
    TRef.unary (TRef.of (T := ⟨S600000x128, .f32⟩) main_v50) (TRef.of (T := ⟨S600000x128, .f32⟩) main_call1_v0) Host.negf,
    TRef.unary (TRef.of (T := ⟨S600000x128, .f32⟩) main_call1_v0) (TRef.of (T := ⟨S600000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S600000x128, .f32⟩) main_call1_v2) (broadcastInDim S600000x128 ![] bcast_S_S600000x128),
    TRef.binary (TRef.of (T := ⟨S600000x128, .f32⟩) main_call1_v2) (TRef.of (T := ⟨S600000x128, .f32⟩) main_call1_v1) (TRef.of (T := ⟨S600000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S600000x128, .f32⟩) main_call1_v4) (broadcastInDim S600000x128 ![] bcast_S_S600000x128),
    TRef.binary (TRef.of (T := ⟨S600000x128, .f32⟩) main_call1_v4) (TRef.of (T := ⟨S600000x128, .f32⟩) main_call1_v3) (TRef.of (T := ⟨S600000x128, .f32⟩) main_call1_v5) Host.divf,
    TRef.binary (TRef.of (T := ⟨S600000x128, .f32⟩) main_v50) (TRef.of (T := ⟨S600000x128, .f32⟩) main_call1_v5) (TRef.of (T := ⟨S600000x128, .f32⟩) main_v51) mulf,
    binary main_v51 main_arg7 main_v52 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg8 main_v53 (broadcastInDim S1x128 ![1] bcast_S128_S1x128_1 : (⟨S128, .f32⟩ : BufTy).Contents (Elt F) → (⟨S1x128, .f32⟩ : BufTy).Contents (Elt F)),
    unary main_v53 main_v54 (broadcastInDim S600000x128 ![0, 1] bcast_S1x128_S600000x128_0_1 : (⟨S1x128, .f32⟩ : BufTy).Contents (Elt F) → (⟨S600000x128, .f32⟩ : BufTy).Contents (Elt F)),
    binary main_v52 main_v54 main_v55 (addf : (⟨S600000x128, .f32⟩ : BufTy).Contents (Elt F) → (⟨S600000x128, .f32⟩ : BufTy).Contents (Elt F) → (⟨S600000x128, .f32⟩ : BufTy).Contents (Elt F)),
    TRef.unary (TRef.of (T := ⟨S600000x128, .f32⟩) main_v55) (TRef.of (T := ⟨S600000x128, .f32⟩) main_call2_v0) Host.negf,
    TRef.unary (TRef.of (T := ⟨S600000x128, .f32⟩) main_call2_v0) (TRef.of (T := ⟨S600000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S600000x128, .f32⟩) main_call2_v2) (broadcastInDim S600000x128 ![] bcast_S_S600000x128),
    TRef.binary (TRef.of (T := ⟨S600000x128, .f32⟩) main_call2_v2) (TRef.of (T := ⟨S600000x128, .f32⟩) main_call2_v1) (TRef.of (T := ⟨S600000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S600000x128, .f32⟩) main_call2_v4) (broadcastInDim S600000x128 ![] bcast_S_S600000x128),
    TRef.binary (TRef.of (T := ⟨S600000x128, .f32⟩) main_call2_v4) (TRef.of (T := ⟨S600000x128, .f32⟩) main_call2_v3) (TRef.of (T := ⟨S600000x128, .f32⟩) main_call2_v5) Host.divf,
    TRef.binary (TRef.of (T := ⟨S600000x128, .f32⟩) main_v55) (TRef.of (T := ⟨S600000x128, .f32⟩) main_call2_v5) (TRef.of (T := ⟨S600000x128, .f32⟩) main_v56) mulf,
    binary main_v56 main_arg9 main_v57 ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)),
    unary main_arg10 main_v58 (broadcastInDim S1x1 ![1] bcast_S1_S1x1_1 : (⟨S1, .f32⟩ : BufTy).Contents (Elt F) → (⟨S1x1, .f32⟩ : BufTy).Contents (Elt F)),
    unary main_v58 main_v59 (broadcastInDim S600000x1 ![0, 1] bcast_S1x1_S600000x1_0_1 : (⟨S1x1, .f32⟩ : BufTy).Contents (Elt F) → (⟨S600000x1, .f32⟩ : BufTy).Contents (Elt F)),
    binary main_v57 main_v59 main_v60 (addf : (⟨S600000x1, .f32⟩ : BufTy).Contents (Elt F) → (⟨S600000x1, .f32⟩ : BufTy).Contents (Elt F) → (⟨S600000x1, .f32⟩ : BufTy).Contents (Elt F)),
    unary main_v60 main_v61 (broadcastInDim S600000x3 ![0, 1] bcast_S600000x1_S600000x3_0_1 : (⟨S600000x1, .f32⟩ : BufTy).Contents (Elt F) → (⟨S600000x3, .f32⟩ : BufTy).Contents (Elt F)),
    binary main_v26 main_v61 main_v62 (mulf : (⟨S600000x3, .f32⟩ : BufTy).Contents (Elt F) → (⟨S600000x3, .f32⟩ : BufTy).Contents (Elt F) → (⟨S600000x3, .f32⟩ : BufTy).Contents (Elt F)),
    nullary main_cst_8 (constant S_ .f32 0x00000000#32),
    unary main_cst_8 main_v63 (broadcastInDim S50000x3 ![] bcast_S_S50000x3 : (⟨S_, .f32⟩ : BufTy).Contents (Elt F) → (⟨S50000x3, .f32⟩ : BufTy).Contents (Elt F)),
    unary main_v1 main_v64 (broadcastInDim S600000x1 ![0] bcast_S600000_S600000x1_0 : (⟨S600000, .i32⟩ : BufTy).Contents (Elt F) → (⟨S600000x1, .i32⟩ : BufTy).Contents (Elt F)),
    ternary main_v63 main_v64 main_v62 main_v65 ((fun x i u => Host.scatterAdd scatter_S50000x3_S600000x1_S600000x3_1_0_0_1 x i u) : (⟨S50000x3, .f32⟩ : BufTy).Contents (Elt F) → (⟨S600000x1, .i32⟩ : BufTy).Contents (Elt F) → (⟨S600000x3, .f32⟩ : BufTy).Contents (Elt F) → (⟨S50000x3, .f32⟩ : BufTy).Contents (Elt F)),
    binary main_arg1 main_v65 main_v66 (addf : (⟨S50000x3, .f32⟩ : BufTy).Contents (Elt F) → (⟨S50000x3, .f32⟩ : BufTy).Contents (Elt F) → (⟨S50000x3, .f32⟩ : BufTy).Contents (Elt F)),
    nullary main_cst_9 (constant S_ .f32 0x00000000#32),
    unary main_cst_9 main_v67 (broadcastInDim S50000x128 ![] bcast_S_S50000x128 : (⟨S_, .f32⟩ : BufTy).Contents (Elt F) → (⟨S50000x128, .f32⟩ : BufTy).Contents (Elt F)),
    unary main_v1 main_v68 (broadcastInDim S600000x1 ![0] bcast_S600000_S600000x1_0 : (⟨S600000, .i32⟩ : BufTy).Contents (Elt F) → (⟨S600000x1, .i32⟩ : BufTy).Contents (Elt F)),
    ternary main_v67 main_v68 main_v51 main_v69 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- From the second join to the end: the node layers and the first result. -/
abbrev opsC : List (HloOp τ sig (Elt F)) :=
  [ binary main_arg0 main_v69 main_v70 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v70 main_arg11 main_v71 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg12 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)),
    TRef.unary (TRef.of (T := ⟨S50000x128, .f32⟩) main_v74) (TRef.of (T := ⟨S50000x128, .f32⟩) main_call3_v0) Host.negf,
    TRef.unary (TRef.of (T := ⟨S50000x128, .f32⟩) main_call3_v0) (TRef.of (T := ⟨S50000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S50000x128, .f32⟩) main_call3_v2) (broadcastInDim S50000x128 ![] bcast_S_S50000x128),
    TRef.binary (TRef.of (T := ⟨S50000x128, .f32⟩) main_call3_v2) (TRef.of (T := ⟨S50000x128, .f32⟩) main_call3_v1) (TRef.of (T := ⟨S50000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S50000x128, .f32⟩) main_call3_v4) (broadcastInDim S50000x128 ![] bcast_S_S50000x128),
    TRef.binary (TRef.of (T := ⟨S50000x128, .f32⟩) main_call3_v4) (TRef.of (T := ⟨S50000x128, .f32⟩) main_call3_v3) (TRef.of (T := ⟨S50000x128, .f32⟩) main_call3_v5) Host.divf,
    TRef.binary (TRef.of (T := ⟨S50000x128, .f32⟩) main_v74) (TRef.of (T := ⟨S50000x128, .f32⟩) main_call3_v5) (TRef.of (T := ⟨S50000x128, .f32⟩) main_v75) mulf,
    binary main_v75 main_arg13 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg14 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)),
    binary main_arg0 main_v79 main_v80 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- The line is its three pieces in order. -/
theorem ops_cut : (ops : List (HloOp τ sig (Elt F))) = opsA ++ (opsB ++ opsC) := rfl

/-- The fold over the line is the fold over the pieces, one after the other. -/
theorem after_cut (V : Valuation τ sig (Elt F)) : after (ops (F := F)) V = after opsC (after opsB (after opsA V)) := by
  rw [ops_cut, StableHlo.after_append, StableHlo.after_append]

/-- The results of a piece by one simplifier pass, a three-reference `nary` read at its operands' own references and the
    typed references of an inlined function read as the buffers they are. -/
macro "piece_results" : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne', TRef.ofBuf, TRef.toBuf, cast_eq]))

variable (m : (ℓ : Loc nD τ sig) → Buf (Elt F) ℓ) (c : Dev nD)

/-! ## The first piece, from the launch contents -/

theorem A_v1 : after (opsA (F := F)) (launchContents m c) (Proc.devRef .tc main_v1) = val_main_v1 (F := F) (m ((c.tc : Thread nD τ).loc main_arg2)) := by
  after_results_simp <;> rfl

theorem A_v21 : after (opsA (F := F)) (launchContents m c) (Proc.devRef .tc main_v21) = val_main_v21 (F := F) (m ((c.tc : Thread nD τ).loc main_arg1)) (m ((c.tc : Thread nD τ).loc main_arg2)) := by
  after_results_simp <;> rfl

theorem A_v26 : after (opsA (F := F)) (launchContents m c) (Proc.devRef .tc main_v26) = val_main_v26 (F := F) (m ((c.tc : Thread nD τ).loc main_arg1)) (m ((c.tc : Thread nD τ).loc main_arg2)) := by
  after_results_simp <;> rfl

theorem A_v33 : after (opsA (F := F)) (launchContents m c) (Proc.devRef .tc main_v33) = val_main_v33 (F := F) (m ((c.tc : Thread nD τ).loc main_arg0)) (m ((c.tc : Thread nD τ).loc main_arg2)) := by
  after_results_simp <;> rfl

theorem A_v40 : after (opsA (F := F)) (launchContents m c) (Proc.devRef .tc main_v40) = val_main_v40 (F := F) (m ((c.tc : Thread nD τ).loc main_arg0)) (m ((c.tc : Thread nD τ).loc main_arg2)) := by
  after_results_simp <;> rfl

theorem A_arg0 : after (opsA (F := F)) (launchContents m c) (Proc.devRef .tc main_arg0) = m ((c.tc : Thread nD τ).loc main_arg0) := by
  after_results_simp <;> rfl
theorem A_arg1 : after (opsA (F := F)) (launchContents m c) (Proc.devRef .tc main_arg1) = m ((c.tc : Thread nD τ).loc main_arg1) := by
  after_results_simp <;> rfl
theorem A_arg2 : after (opsA (F := F)) (launchContents m c) (Proc.devRef .tc main_arg2) = m ((c.tc : Thread nD τ).loc main_arg2) := by
  after_results_simp <;> rfl
theorem A_arg3 : after (opsA (F := F)) (launchContents m c) (Proc.devRef .tc main_arg3) = m ((c.tc : Thread nD τ).loc main_arg3) := by
  after_results_simp <;> rfl
theorem A_arg4 : after (opsA (F := F)) (launchContents m c) (Proc.devRef .tc main_arg4) = m ((c.tc : Thread nD τ).loc main_arg4) := by
  after_results_simp <;> rfl
theorem A_arg5 : after (opsA (F := F)) (launchContents m c) (Proc.devRef .tc main_arg5) = m ((c.tc : Thread nD τ).loc main_arg5) := by
  after_results_simp <;> rfl
theorem A_arg6 : after (opsA (F := F)) (launchContents m c) (Proc.devRef .tc main_arg6) = m ((c.tc : Thread nD τ).loc main_arg6) := by
  after_results_simp <;> rfl
theorem A_arg7 : after (opsA (F := F)) (launchContents m c) (Proc.devRef .tc main_arg7) = m ((c.tc : Thread nD τ).loc main_arg7) := by
  after_results_simp <;> rfl
theorem A_arg8 : after (opsA (F := F)) (launchContents m c) (Proc.devRef .tc main_arg8) = m ((c.tc : Thread nD τ).loc main_arg8) := by
  after_results_simp <;> rfl
theorem A_arg9 : after (opsA (F := F)) (launchContents m c) (Proc.devRef .tc main_arg9) = m ((c.tc : Thread nD τ).loc main_arg9) := by
  after_results_simp <;> rfl
theorem A_arg10 : after (opsA (F := F)) (launchContents m c) (Proc.devRef .tc main_arg10) = m ((c.tc : Thread nD τ).loc main_arg10) := by
  after_results_simp <;> rfl
theorem A_arg11 : after (opsA (F := F)) (launchContents m c) (Proc.devRef .tc main_arg11) = m ((c.tc : Thread nD τ).loc main_arg11) := by
  after_results_simp <;> rfl
theorem A_arg12 : after (opsA (F := F)) (launchContents m c) (Proc.devRef .tc main_arg12) = m ((c.tc : Thread nD τ).loc main_arg12) := by
  after_results_simp <;> rfl
theorem A_arg13 : after (opsA (F := F)) (launchContents m c) (Proc.devRef .tc main_arg13) = m ((c.tc : Thread nD τ).loc main_arg13) := by
  after_results_simp <;> rfl
theorem A_arg14 : after (opsA (F := F)) (launchContents m c) (Proc.devRef .tc main_arg14) = m ((c.tc : Thread nD τ).loc main_arg14) := by
  after_results_simp <;> rfl

/-! ## The second piece, from the contents the first leaves -/

/-- The message stage and the second result after the second piece. -/
theorem B_v69 : after (opsB (F := F)) (after opsA (launchContents m c)) (Proc.devRef .tc main_v69)
    = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  generalize hX : after (opsA (F := F)) (launchContents m c) = X
  have h1 := A_v1 m c; have h21 := A_v21 m c; have h33 := A_v33 m c; have h40 := A_v40 m c
  have a3 := A_arg3 m c; have a4 := A_arg4 m c; have a5 := A_arg5 m c; have a6 := A_arg6 m c
  rw [hX] at h1 h21 h33 h40 a3 a4 a5 a6
  piece_results
  rw [h1, h21, h33, h40, a3, a4, a5, a6]
  rfl

theorem B_v66 : after (opsB (F := F)) (after opsA (launchContents m c)) (Proc.devRef .tc main_v66)
    = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  generalize hX : after (opsA (F := F)) (launchContents m c) = X
  have h1 := A_v1 m c; have h21 := A_v21 m c; have h26 := A_v26 m c; have h33 := A_v33 m c; have h40 := A_v40 m c
  have a1 := A_arg1 m c; have a3 := A_arg3 m c; have a4 := A_arg4 m c; have a5 := A_arg5 m c; have a6 := A_arg6 m c
  have a7 := A_arg7 m c; have a8 := A_arg8 m c; have a9 := A_arg9 m c; have a10 := A_arg10 m c
  rw [hX] at h1 h21 h26 h33 h40 a1 a3 a4 a5 a6 a7 a8 a9 a10
  piece_results
  rw [h1, h21, h26, h33, h40, a1, a3, a4, a5, a6, a7, a8, a9, a10]
  rfl

/-- No operation of the second or of the third piece writes an argument, and none of the third writes the second result. -/
theorem B_arg0 (X : Valuation τ sig (Elt F)) : after (opsB (F := F)) X (Proc.devRef .tc main_arg0) = X (Proc.devRef .tc main_arg0) := by
  piece_results
theorem C_arg0 (X : Valuation τ sig (Elt F)) : after (opsC (F := F)) X (Proc.devRef .tc main_arg0) = X (Proc.devRef .tc main_arg0) := by
  piece_results
theorem B_arg1 (X : Valuation τ sig (Elt F)) : after (opsB (F := F)) X (Proc.devRef .tc main_arg1) = X (Proc.devRef .tc main_arg1) := by
  piece_results
theorem C_arg1 (X : Valuation τ sig (Elt F)) : after (opsC (F := F)) X (Proc.devRef .tc main_arg1) = X (Proc.devRef .tc main_arg1) := by
  piece_results
theorem B_arg2 (X : Valuation τ sig (Elt F)) : after (opsB (F := F)) X (Proc.devRef .tc main_arg2) = X (Proc.devRef .tc main_arg2) := by
  piece_results
theorem C_arg2 (X : Valuation τ sig (Elt F)) : after (opsC (F := F)) X (Proc.devRef .tc main_arg2) = X (Proc.devRef .tc main_arg2) := by
  piece_results
theorem B_arg3 (X : Valuation τ sig (Elt F)) : after (opsB (F := F)) X (Proc.devRef .tc main_arg3) = X (Proc.devRef .tc main_arg3) := by
  piece_results
theorem C_arg3 (X : Valuation τ sig (Elt F)) : after (opsC (F := F)) X (Proc.devRef .tc main_arg3) = X (Proc.devRef .tc main_arg3) := by
  piece_results
theorem B_arg4 (X : Valuation τ sig (Elt F)) : after (opsB (F := F)) X (Proc.devRef .tc main_arg4) = X (Proc.devRef .tc main_arg4) := by
  piece_results
theorem C_arg4 (X : Valuation τ sig (Elt F)) : after (opsC (F := F)) X (Proc.devRef .tc main_arg4) = X (Proc.devRef .tc main_arg4) := by
  piece_results
theorem B_arg5 (X : Valuation τ sig (Elt F)) : after (opsB (F := F)) X (Proc.devRef .tc main_arg5) = X (Proc.devRef .tc main_arg5) := by
  piece_results
theorem C_arg5 (X : Valuation τ sig (Elt F)) : after (opsC (F := F)) X (Proc.devRef .tc main_arg5) = X (Proc.devRef .tc main_arg5) := by
  piece_results
theorem B_arg6 (X : Valuation τ sig (Elt F)) : after (opsB (F := F)) X (Proc.devRef .tc main_arg6) = X (Proc.devRef .tc main_arg6) := by
  piece_results
theorem C_arg6 (X : Valuation τ sig (Elt F)) : after (opsC (F := F)) X (Proc.devRef .tc main_arg6) = X (Proc.devRef .tc main_arg6) := by
  piece_results
theorem B_arg7 (X : Valuation τ sig (Elt F)) : after (opsB (F := F)) X (Proc.devRef .tc main_arg7) = X (Proc.devRef .tc main_arg7) := by
  piece_results
theorem C_arg7 (X : Valuation τ sig (Elt F)) : after (opsC (F := F)) X (Proc.devRef .tc main_arg7) = X (Proc.devRef .tc main_arg7) := by
  piece_results
theorem B_arg8 (X : Valuation τ sig (Elt F)) : after (opsB (F := F)) X (Proc.devRef .tc main_arg8) = X (Proc.devRef .tc main_arg8) := by
  piece_results
theorem C_arg8 (X : Valuation τ sig (Elt F)) : after (opsC (F := F)) X (Proc.devRef .tc main_arg8) = X (Proc.devRef .tc main_arg8) := by
  piece_results
theorem B_arg9 (X : Valuation τ sig (Elt F)) : after (opsB (F := F)) X (Proc.devRef .tc main_arg9) = X (Proc.devRef .tc main_arg9) := by
  piece_results
theorem C_arg9 (X : Valuation τ sig (Elt F)) : after (opsC (F := F)) X (Proc.devRef .tc main_arg9) = X (Proc.devRef .tc main_arg9) := by
  piece_results
theorem B_arg10 (X : Valuation τ sig (Elt F)) : after (opsB (F := F)) X (Proc.devRef .tc main_arg10) = X (Proc.devRef .tc main_arg10) := by
  piece_results
theorem C_arg10 (X : Valuation τ sig (Elt F)) : after (opsC (F := F)) X (Proc.devRef .tc main_arg10) = X (Proc.devRef .tc main_arg10) := by
  piece_results
theorem B_arg11 (X : Valuation τ sig (Elt F)) : after (opsB (F := F)) X (Proc.devRef .tc main_arg11) = X (Proc.devRef .tc main_arg11) := by
  piece_results
theorem C_arg11 (X : Valuation τ sig (Elt F)) : after (opsC (F := F)) X (Proc.devRef .tc main_arg11) = X (Proc.devRef .tc main_arg11) := by
  piece_results
theorem B_arg12 (X : Valuation τ sig (Elt F)) : after (opsB (F := F)) X (Proc.devRef .tc main_arg12) = X (Proc.devRef .tc main_arg12) := by
  piece_results
theorem C_arg12 (X : Valuation τ sig (Elt F)) : after (opsC (F := F)) X (Proc.devRef .tc main_arg12) = X (Proc.devRef .tc main_arg12) := by
  piece_results
theorem B_arg13 (X : Valuation τ sig (Elt F)) : after (opsB (F := F)) X (Proc.devRef .tc main_arg13) = X (Proc.devRef .tc main_arg13) := by
  piece_results
theorem C_arg13 (X : Valuation τ sig (Elt F)) : after (opsC (F := F)) X (Proc.devRef .tc main_arg13) = X (Proc.devRef .tc main_arg13) := by
  piece_results
theorem B_arg14 (X : Valuation τ sig (Elt F)) : after (opsB (F := F)) X (Proc.devRef .tc main_arg14) = X (Proc.devRef .tc main_arg14) := by
  piece_results
theorem C_arg14 (X : Valuation τ sig (Elt F)) : after (opsC (F := F)) X (Proc.devRef .tc main_arg14) = X (Proc.devRef .tc main_arg14) := by
  piece_results
theorem C_v66 (X : Valuation τ sig (Elt F)) : after (opsC (F := F)) X (Proc.devRef .tc main_v66) = X (Proc.devRef .tc main_v66) := by
  piece_results

/-! ## The whole line -/

/-- Argument 0's buffer after the whole line is as launched. -/
theorem fold_arg0 : after (ops (F := F)) (launchContents m c) (Proc.devRef .tc main_arg0) = m ((c.tc : Thread nD τ).loc main_arg0) := by
  rw [after_cut, C_arg0, B_arg0]; exact A_arg0 m c
/-- Argument 1's buffer after the whole line is as launched. -/
theorem fold_arg1 : after (ops (F := F)) (launchContents m c) (Proc.devRef .tc main_arg1) = m ((c.tc : Thread nD τ).loc main_arg1) := by
  rw [after_cut, C_arg1, B_arg1]; exact A_arg1 m c
/-- Argument 2's buffer after the whole line is as launched. -/
theorem fold_arg2 : after (ops (F := F)) (launchContents m c) (Proc.devRef .tc main_arg2) = m ((c.tc : Thread nD τ).loc main_arg2) := by
  rw [after_cut, C_arg2, B_arg2]; exact A_arg2 m c
/-- Argument 3's buffer after the whole line is as launched. -/
theorem fold_arg3 : after (ops (F := F)) (launchContents m c) (Proc.devRef .tc main_arg3) = m ((c.tc : Thread nD τ).loc main_arg3) := by
  rw [after_cut, C_arg3, B_arg3]; exact A_arg3 m c
/-- Argument 4's buffer after the whole line is as launched. -/
theorem fold_arg4 : after (ops (F := F)) (launchContents m c) (Proc.devRef .tc main_arg4) = m ((c.tc : Thread nD τ).loc main_arg4) := by
  rw [after_cut, C_arg4, B_arg4]; exact A_arg4 m c
/-- Argument 5's buffer after the whole line is as launched. -/
theorem fold_arg5 : after (ops (F := F)) (launchContents m c) (Proc.devRef .tc main_arg5) = m ((c.tc : Thread nD τ).loc main_arg5) := by
  rw [after_cut, C_arg5, B_arg5]; exact A_arg5 m c
/-- Argument 6's buffer after the whole line is as launched. -/
theorem fold_arg6 : after (ops (F := F)) (launchContents m c) (Proc.devRef .tc main_arg6) = m ((c.tc : Thread nD τ).loc main_arg6) := by
  rw [after_cut, C_arg6, B_arg6]; exact A_arg6 m c
/-- Argument 7's buffer after the whole line is as launched. -/
theorem fold_arg7 : after (ops (F := F)) (launchContents m c) (Proc.devRef .tc main_arg7) = m ((c.tc : Thread nD τ).loc main_arg7) := by
  rw [after_cut, C_arg7, B_arg7]; exact A_arg7 m c
/-- Argument 8's buffer after the whole line is as launched. -/
theorem fold_arg8 : after (ops (F := F)) (launchContents m c) (Proc.devRef .tc main_arg8) = m ((c.tc : Thread nD τ).loc main_arg8) := by
  rw [after_cut, C_arg8, B_arg8]; exact A_arg8 m c
/-- Argument 9's buffer after the whole line is as launched. -/
theorem fold_arg9 : after (ops (F := F)) (launchContents m c) (Proc.devRef .tc main_arg9) = m ((c.tc : Thread nD τ).loc main_arg9) := by
  rw [after_cut, C_arg9, B_arg9]; exact A_arg9 m c
/-- Argument 10's buffer after the whole line is as launched. -/
theorem fold_arg10 : after (ops (F := F)) (launchContents m c) (Proc.devRef .tc main_arg10) = m ((c.tc : Thread nD τ).loc main_arg10) := by
  rw [after_cut, C_arg10, B_arg10]; exact A_arg10 m c
/-- Argument 11's buffer after the whole line is as launched. -/
theorem fold_arg11 : after (ops (F := F)) (launchContents m c) (Proc.devRef .tc main_arg11) = m ((c.tc : Thread nD τ).loc main_arg11) := by
  rw [after_cut, C_arg11, B_arg11]; exact A_arg11 m c
/-- Argument 12's buffer after the whole line is as launched. -/
theorem fold_arg12 : after (ops (F := F)) (launchContents m c) (Proc.devRef .tc main_arg12) = m ((c.tc : Thread nD τ).loc main_arg12) := by
  rw [after_cut, C_arg12, B_arg12]; exact A_arg12 m c
/-- Argument 13's buffer after the whole line is as launched. -/
theorem fold_arg13 : after (ops (F := F)) (launchContents m c) (Proc.devRef .tc main_arg13) = m ((c.tc : Thread nD τ).loc main_arg13) := by
  rw [after_cut, C_arg13, B_arg13]; exact A_arg13 m c
/-- Argument 14's buffer after the whole line is as launched. -/
theorem fold_arg14 : after (ops (F := F)) (launchContents m c) (Proc.devRef .tc main_arg14) = m ((c.tc : Thread nD τ).loc main_arg14) := by
  rw [after_cut, C_arg14, B_arg14]; exact A_arg14 m c

/-- THE SECOND RESULT after the whole line is the stage `val_main_v66` of the arguments. -/
theorem fold_v66 : after (ops (F := F)) (launchContents m c) (Proc.devRef .tc main_v66)
    = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [after_cut, C_v66, B_v66]

/-- THE FIRST RESULT after the whole line is the stage `val_main_v80` of the arguments. -/
theorem fold_v80 : after (ops (F := F)) (launchContents m c) (Proc.devRef .tc main_v80)
    = val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) := by
  rw [after_cut]
  have h69 := B_v69 m c
  have b0 := (B_arg0 (F := F) (after opsA (launchContents m c))).trans (A_arg0 m c)
  have b11 := (B_arg11 (F := F) (after opsA (launchContents m c))).trans (A_arg11 m c)
  have b12 := (B_arg12 (F := F) (after opsA (launchContents m c))).trans (A_arg12 m c)
  have b13 := (B_arg13 (F := F) (after opsA (launchContents m c))).trans (A_arg13 m c)
  have b14 := (B_arg14 (F := F) (after opsA (launchContents m c))).trans (A_arg14 m c)
  generalize after (opsB (F := F)) (after opsA (launchContents m c)) = X at h69 b0 b11 b12 b13 b14 ⊢
  piece_results
  rw [h69, b0, b11, b12, b13, b14]
  rfl

/-- THE RUN: every weakly fair execution of the reference terminates with its two results at the stages
    `val_main_v80` and `val_main_v66` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v80).trans (fold_v80 m c), (h c main_v66).trans (fold_v66 m c),
      (h c main_arg0).trans (fold_arg0 m c),
      (h c main_arg1).trans (fold_arg1 m c),
      (h c main_arg2).trans (fold_arg2 m c),
      (h c main_arg3).trans (fold_arg3 m c),
      (h c main_arg4).trans (fold_arg4 m c),
      (h c main_arg5).trans (fold_arg5 m c),
      (h c main_arg6).trans (fold_arg6 m c),
      (h c main_arg7).trans (fold_arg7 m c),
      (h c main_arg8).trans (fold_arg8 m c),
      (h c main_arg9).trans (fold_arg9 m c),
      (h c main_arg10).trans (fold_arg10 m c),
      (h c main_arg11).trans (fold_arg11 m c),
      (h c main_arg12).trans (fold_arg12 m c),
      (h c main_arg13).trans (fold_arg13 m c),
      (h c main_arg14).trans (fold_arg14 m c)⟩)
    (run_fold m ρ)

end Cert.ReferenceIdeal.Fold

end
-- ==== Proof.Spec.lean ====
/-
  The message-passing layer, row by row, on the extended reals.

  For one edge with endpoint feature rows `hr`, `hc` (128 entries each) and coordinate difference `df` (3 entries):
  the squared length `rad df = Σ_d df_d²`; the first edge layer `h1`, whose 257-term contraction against the
  weight matrix is written in three parts (the 128 terms of `hr`, the 128 terms of `hc`, the one term of `rad`);
  the message `msg = silu (silu h1 · W2 + b2)`; the coordinate gate, a scalar per edge; and the weighted unit
  difference `wd`. For one node with feature row `h` and aggregated message row `mi`: the residual update `node`,
  whose 256-term contraction is written in two parts.

  The laws: a sum over 257 (or 256) terms is the sum of its parts — commutativity and associativity of `+` on the
  extended reals only, so it holds at the infinities too —, and the logistic function is `1 / (1 + e^(-x))`.
-/
import Idealize.ShloMosaic.PureOps.Ideal
import Idealize.ShloMosaic.PureOps.Ideal.Laws
import Idealize.ShloMosaic.Lib.IdealHost
import Mathlib.Algebra.BigOperators.Fin

noncomputable section

namespace Cert.Spec

open Idealize.ShloMosaic

/-- The activation `x · σ(x)`, `σ` the logistic function, on every extended real. -/
def silu (x : EReal) : EReal := x * Ideal.logistic x

/-- The squared length of a coordinate difference. -/
def rad (df : Fin 3 → EReal) : EReal := ∑ d : Fin 3, df d * df d

/-- A linear layer on a row of 128 entries: `(v · W)_j + b_j`. -/
def lin (v : Fin 128 → EReal) (W : Fin 128 → Fin 128 → EReal) (b : Fin 128 → EReal) (j : Fin 128) : EReal :=
  (∑ k : Fin 128, v k * W k j) + b j

/-- The first edge layer before its activation, its contraction in three parts. -/
def h1 (hr hc : Fin 128 → EReal) (df : Fin 3 → EReal) (Wr Wc : Fin 128 → Fin 128 → EReal) (wrad b1 : Fin 128 → EReal)
    (j : Fin 128) : EReal :=
  ((∑ k : Fin 128, hr k * Wr k j) + (∑ k : Fin 128, hc k * Wc k j)) + rad df * wrad j + b1 j

/-- The message of an edge. -/
def msg (hr hc : Fin 128 → EReal) (df : Fin 3 → EReal) (Wr Wc : Fin 128 → Fin 128 → EReal) (wrad b1 : Fin 128 → EReal)
    (W2 : Fin 128 → Fin 128 → EReal) (b2 : Fin 128 → EReal) (j : Fin 128) : EReal :=
  silu (lin (fun k => silu (h1 hr hc df Wr Wc wrad b1 k)) W2 b2 j)

/-- The coordinate gate of an edge from its message row: a scalar. -/
def gate (mrow : Fin 128 → EReal) (Wc1 : Fin 128 → Fin 128 → EReal) (bc1 wc2 : Fin 128 → EReal) (bc2 : EReal) : EReal :=
  (∑ k : Fin 128, silu (lin mrow Wc1 bc1 k) * wc2 k) + bc2

/-- The small constant added to the length: the binary value of the printed literal. -/
def eps : EReal := Ideal.ofBits .f32 0x322BCC77#32

/-- The coordinate difference over its length plus `eps`. -/
def unitDiff (df : Fin 3 → EReal) (d : Fin 3) : EReal := Ideal.div (df d) (Ideal.sqrt (rad df) + eps)

/-- The weighted unit difference of an edge. -/
def wd (hr hc : Fin 128 → EReal) (df : Fin 3 → EReal) (Wr Wc : Fin 128 → Fin 128 → EReal) (wrad b1 : Fin 128 → EReal)
    (W2 : Fin 128 → Fin 128 → EReal) (b2 : Fin 128 → EReal) (Wc1 : Fin 128 → Fin 128 → EReal) (bc1 wc2 : Fin 128 → EReal)
    (bc2 : EReal) (d : Fin 3) : EReal :=
  unitDiff df d * gate (msg hr hc df Wr Wc wrad b1 W2 b2) Wc1 bc1 wc2 bc2

/-- The first node layer before its activation, its contraction in two parts. -/
def n1 (h mi : Fin 128 → EReal) (Wh Wm : Fin 128 → Fin 128 → EReal) (b1 : Fin 128 → EReal) (j : Fin 128) : EReal :=
  ((∑ k : Fin 128, h k * Wh k j) + (∑ k : Fin 128, mi k * Wm k j)) + b1 j

/-- The residual node update. -/
def node (h mi : Fin 128 → EReal) (Wh Wm : Fin 128 → Fin 128 → EReal) (b1 : Fin 128 → EReal)
    (W2 : Fin 128 → Fin 128 → EReal) (b2 : Fin 128 → EReal) (j : Fin 128) : EReal :=
  h j + lin (fun k => silu (n1 h mi Wh Wm b1 k)) W2 b2 j

/-! ## The laws -/

/-- The logistic function is the quotient jax expands it into. -/
theorem logistic_expand (x : EReal) : Ideal.div 1 (1 + Ideal.exp (-x)) = Ideal.logistic x := rfl

/-- A sum over 256 terms is the sum of its two halves. -/
theorem sum256 (f : Fin 256 → EReal) :
    ∑ k : Fin 256, f k
      = (∑ k : Fin 128, f ⟨k.val, by omega⟩) + (∑ k : Fin 128, f ⟨128 + k.val, by omega⟩) := by
  rw [show (∑ k : Fin 256, f k) = ∑ k : Fin (128 + 128), f k from rfl, Fin.sum_univ_add]
  rfl

/-- A sum over 257 terms is the sum of two runs of 128 and the last term. -/
theorem sum257 (f : Fin 257 → EReal) :
    ∑ k : Fin 257, f k
      = (∑ k : Fin 128, f ⟨k.val, by omega⟩) + (∑ k : Fin 128, f ⟨128 + k.val, by omega⟩) + f ⟨256, by omega⟩ := by
  rw [show (∑ k : Fin 257, f k) = ∑ k : Fin (256 + 1), f k from rfl, Fin.sum_univ_castSucc,
    sum256 (fun k => f k.castSucc)]
  rfl

/-- The reference's first edge layer — one contraction over the 257 joined entries `cat` — is the three-part form. -/
theorem h1_of_joined (hr hc : Fin 128 → EReal) (df : Fin 3 → EReal) (W : Fin 257 → Fin 128 → EReal) (b1 : Fin 128 → EReal)
    (cat : Fin 257 → EReal) (hl : ∀ k : Fin 128, cat ⟨k.val, by omega⟩ = hr k)
    (hm : ∀ k : Fin 128, cat ⟨128 + k.val, by omega⟩ = hc k) (hlast : cat ⟨256, by omega⟩ = rad df) (j : Fin 128) :
    (∑ k : Fin 257, cat k * W k j) + b1 j
      = h1 hr hc df (fun k j => W ⟨k.val, by omega⟩ j) (fun k j => W ⟨128 + k.val, by omega⟩ j)
          (fun j => W ⟨256, by omega⟩ j) b1 j := by
  unfold h1
  rw [sum257, hlast]
  simp only [hl, hm]

/-- The reference's first node layer — one contraction over the 256 joined entries `cat` — is the two-part form. -/
theorem n1_of_joined (h mi : Fin 128 → EReal) (W : Fin 256 → Fin 128 → EReal) (b1 : Fin 128 → EReal)
    (cat : Fin 256 → EReal) (hl : ∀ k : Fin 128, cat ⟨k.val, by omega⟩ = h k)
    (hm : ∀ k : Fin 128, cat ⟨128 + k.val, by omega⟩ = mi k) (j : Fin 128) :
    (∑ k : Fin 256, cat k * W k j) + b1 j
      = n1 h mi (fun k j => W ⟨k.val, by omega⟩ j) (fun k j => W ⟨128 + k.val, by omega⟩ j) b1 j := by
  unfold n1
  rw [sum256]
  simp only [hl, hm]

end Cert.Spec

end
-- ==== Proof.Arrays.lean ====
/-
  The arrays the two kernel regions read, named at their literal shapes, and the three arrays they leave as whole-array
  functions: the message array and the weighted-difference array of the edge region, the output array of the node
  region — each entry the row function of `Cert.Spec` of the entry's row of the row-blocked inputs and of the weight
  arrays.
-/
import proofs.«168844_j68195490726193_1_alg».proof.Proof.FrameKernelIdeal
import proofs.«168844_j68195490726193_1_alg».proof.Proof.Spec
import Idealize.ShloMosaic.Lib.ValueIdx

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.KernelIdeal.GenP
open Idealize.ShloMosaic.Pipeline (Dat Cfg Window)

-- the TensorCore's buffer contents when a region is entered
variable (V : (c : Dev nD) → (b : Ref sig .tc) → Buf (Elt Ideal) ((c : Thread nD τ).loc b))

/-- The edge region's thirteen input arrays as it finds them, at their literal shapes. -/
abbrev hrA (c : Dev nD) : Vec Ideal S600000x128 .f32 := V c (Pipeline.arrRef spec0 0)
abbrev hcA (c : Dev nD) : Vec Ideal S600000x128 .f32 := V c (Pipeline.arrRef spec0 1)
abbrev dfA (c : Dev nD) : Vec Ideal S600000x3 .f32 := V c (Pipeline.arrRef spec0 2)
abbrev wrA (c : Dev nD) : Vec Ideal S128x128 .f32 := V c (Pipeline.arrRef spec0 3)
abbrev wcA (c : Dev nD) : Vec Ideal S128x128 .f32 := V c (Pipeline.arrRef spec0 4)
abbrev wradA (c : Dev nD) : Vec Ideal S1x128 .f32 := V c (Pipeline.arrRef spec0 5)
abbrev b1A (c : Dev nD) : Vec Ideal S1x128 .f32 := V c (Pipeline.arrRef spec0 6)
abbrev w2A (c : Dev nD) : Vec Ideal S128x128 .f32 := V c (Pipeline.arrRef spec0 7)
abbrev b2A (c : Dev nD) : Vec Ideal S1x128 .f32 := V c (Pipeline.arrRef spec0 8)
abbrev wc1A (c : Dev nD) : Vec Ideal S128x128 .f32 := V c (Pipeline.arrRef spec0 9)
abbrev bc1A (c : Dev nD) : Vec Ideal S1x128 .f32 := V c (Pipeline.arrRef spec0 10)
abbrev wc2A (c : Dev nD) : Vec Ideal S128x1 .f32 := V c (Pipeline.arrRef spec0 11)
abbrev bc2A (c : Dev nD) : Vec Ideal S1x1 .f32 := V c (Pipeline.arrRef spec0 12)

/-- The message array the edge region leaves: edge `e`'s row is `Cert.Spec.msg` of row `e` of the gathered features and
    differences and of the weight arrays. -/
def msgG (c : Dev nD) : S600000x128.Idx → Elt Ideal .f32 := fun i =>
  Cert.Spec.msg (fun k => hrA V c (ix2 (i 0) k)) (fun k => hcA V c (ix2 (i 0) k)) (fun d => dfA V c (ix2 (i 0) d))
    (fun k j => wrA V c (ix2 k j)) (fun k j => wcA V c (ix2 k j)) (fun j => wradA V c (ix2 0 j)) (fun j => b1A V c (ix2 0 j))
    (fun k j => w2A V c (ix2 k j)) (fun j => b2A V c (ix2 0 j)) (i 1)

/-- The weighted-difference array the edge region leaves. -/
def wdG (c : Dev nD) : S600000x3.Idx → Elt Ideal .f32 := fun i =>
  Cert.Spec.wd (fun k => hrA V c (ix2 (i 0) k)) (fun k => hcA V c (ix2 (i 0) k)) (fun d => dfA V c (ix2 (i 0) d))
    (fun k j => wrA V c (ix2 k j)) (fun k j => wcA V c (ix2 k j)) (fun j => wradA V c (ix2 0 j)) (fun j => b1A V c (ix2 0 j))
    (fun k j => w2A V c (ix2 k j)) (fun j => b2A V c (ix2 0 j))
    (fun k j => wc1A V c (ix2 k j)) (fun j => bc1A V c (ix2 0 j)) (fun k => wc2A V c (ix2 k 0)) (bc2A V c (ix2 0 0)) (i 1)

/-- The node region's seven input arrays as it finds them, at their literal shapes. -/
abbrev hA (c : Dev nD) : Vec Ideal S50000x128 .f32 := V c (Pipeline.arrRef spec1 0)
abbrev miA (c : Dev nD) : Vec Ideal S50000x128 .f32 := V c (Pipeline.arrRef spec1 1)
abbrev whA (c : Dev nD) : Vec Ideal S128x128 .f32 := V c (Pipeline.arrRef spec1 2)
abbrev wmA (c : Dev nD) : Vec Ideal S128x128 .f32 := V c (Pipeline.arrRef spec1 3)
abbrev bn1A (c : Dev nD) : Vec Ideal S1x128 .f32 := V c (Pipeline.arrRef spec1 4)
abbrev wn2A (c : Dev nD) : Vec Ideal S128x128 .f32 := V c (Pipeline.arrRef spec1 5)
abbrev bn2A (c : Dev nD) : Vec Ideal S1x128 .f32 := V c (Pipeline.arrRef spec1 6)

/-- The array the node region leaves: node `n`'s row is `Cert.Spec.node` of row `n` of the features and of the aggregated
    messages and of the weight arrays. -/
def nodeG (c : Dev nD) : S50000x128.Idx → Elt Ideal .f32 := fun i =>
  Cert.Spec.node (fun k => hA V c (ix2 (i 0) k)) (fun k => miA V c (ix2 (i 0) k))
    (fun k j => whA V c (ix2 k j)) (fun k j => wmA V c (ix2 k j)) (fun j => bn1A V c (ix2 0 j))
    (fun k j => wn2A V c (ix2 k j)) (fun j => bn2A V c (ix2 0 j)) (i 1)

end Cert.KernelIdeal.Arr

end
-- ==== Proof.EdgePay.lean ====
/-
  The edge kernel's two stored values, read at one entry.

  Row `p` of the block of messages depends on row `p` of the two feature blocks and of the difference block only (a
  matrix product's row is a function of the left operand's row), so each stored value at `(p, j)` is the row function
  of `Cert.Spec` applied to those rows and to the weight blocks.
-/
import proofs.«168844_j68195490726193_1_alg».proof.Proof.Gen.KernelIdeal.Skeleton
import proofs.«168844_j68195490726193_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgePay

open Idealize.ShloMosaic Idealize.ShloMosaic.ValueIdx Cert.KernelIdeal Cert.KernelIdeal.Gen

/-! ## The non-pointwise operations read at an entry -/

/-! ### The product of a 3000×128 block with a 128×128 matrix -/

theorem lhsA_0 (i : S3000x128.Idx) (q : dot_S3000x128_S128x128_S3000x128_1_0_0_1_n_n.contr.Idx) :
    (dot_S3000x128_S128x128_S3000x128_1_0_0_1_n_n.lhsIdx i q 0).val = (i 0).val := by
  unfold DotDims.lhsIdx
  rw [dif_neg (show ¬(0 : Fin S3000x128.rank) ∈ dot_S3000x128_S128x128_S3000x128_1_0_0_1_n_n.lhsBatch by decide), dif_pos (show (0 : Fin S3000x128.rank) ∈ dot_S3000x128_S128x128_S3000x128_1_0_0_1_n_n.lhsNonContracting by decide)]
  rfl
theorem lhsA_1 (i : S3000x128.Idx) (q : dot_S3000x128_S128x128_S3000x128_1_0_0_1_n_n.contr.Idx) :
    (dot_S3000x128_S128x128_S3000x128_1_0_0_1_n_n.lhsIdx i q 1).val = (q ⟨0, by decide⟩).val :=
  dot_S3000x128_S128x128_S3000x128_1_0_0_1_n_n.lhsIdx_val_of_single rfl i q
theorem rhsA_0 (i : S3000x128.Idx) (q : dot_S3000x128_S128x128_S3000x128_1_0_0_1_n_n.contr.Idx) :
    (dot_S3000x128_S128x128_S3000x128_1_0_0_1_n_n.rhsIdx i q 0).val = (q ⟨0, by decide⟩).val :=
  dot_S3000x128_S128x128_S3000x128_1_0_0_1_n_n.rhsIdx_val_of_single rfl i q
theorem rhsA_1 (i : S3000x128.Idx) (q : dot_S3000x128_S128x128_S3000x128_1_0_0_1_n_n.contr.Idx) :
    (dot_S3000x128_S128x128_S3000x128_1_0_0_1_n_n.rhsIdx i q 1).val = (i 1).val := by
  unfold DotDims.rhsIdx
  rw [dif_neg (show ¬(1 : Fin S128x128.rank) ∈ dot_S3000x128_S128x128_S3000x128_1_0_0_1_n_n.rhsBatch by decide), dif_pos (show (1 : Fin S128x128.rank) ∈ dot_S3000x128_S128x128_S3000x128_1_0_0_1_n_n.rhsNonContracting by decide)]
  rfl

/-- Entry `(p, j)` of the product into a zero accumulator is `Σ_k l(p, k) · r(k, j)`. -/
theorem mmA_apply (l : FVec Ideal S3000x128 .bf16) (r : FVec Ideal S128x128 .bf16) (p : Fin 3000) (j : Fin 128) :
    matmul dot_S3000x128_S128x128_S3000x128_1_0_0_1_n_n none l r (constant (F := Ideal) S3000x128 .f32 0x00000000#32) (ix2 p j)
      = ∑ k : Fin 128, l (ix2 p k) * r (ix2 k j) := by
  show FloatOps.matmul dot_S3000x128_S128x128_S3000x128_1_0_0_1_n_n none l r (constant (F := Ideal) S3000x128 .f32 0x00000000#32) (ix2 p j) = _
  rw [Ideal.matmul_constant_zero_apply, ← Equiv.sum_comp (ValueIdx.contrEquiv1 dot_S3000x128_S128x128_S3000x128_1_0_0_1_n_n 128 rfl rfl).symm]
  refine Finset.sum_congr rfl fun k _ => ?_
  have hk := ValueIdx.contrEquiv1_symm_val dot_S3000x128_S128x128_S3000x128_1_0_0_1_n_n 128 rfl rfl k
  have el : dot_S3000x128_S128x128_S3000x128_1_0_0_1_n_n.lhsIdx (ix2 p j) ((ValueIdx.contrEquiv1 dot_S3000x128_S128x128_S3000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S3000x128_S128x128_S3000x128_1_0_0_1_n_n.rhsIdx (ix2 p j) ((ValueIdx.contrEquiv1 dot_S3000x128_S128x128_S3000x128_1_0_0_1_n_n 128 rfl rfl).symm k) = ix2 k j := funext fun a => Fin.ext (by
    match a with
    | ⟨0, _⟩ => exact (rhsA_0 _ _).trans hk
    | ⟨1, _⟩ => exact rhsA_1 _ _)
  rw [el, er]

/-! ### The product of a 3000×128 block with a 128×1 column -/

theorem lhsB_0 (i : S3000x1.Idx) (q : dot_S3000x128_S128x1_S3000x1_1_0_0_1_n_n.contr.Idx) :
    (dot_S3000x128_S128x1_S3000x1_1_0_0_1_n_n.lhsIdx i q 0).val = (i 0).val := by
  unfold DotDims.lhsIdx
  rw [dif_neg (show ¬(0 : Fin S3000x128.rank) ∈ dot_S3000x128_S128x1_S3000x1_1_0_0_1_n_n.lhsBatch by decide), dif_pos (show (0 : Fin S3000x128.rank) ∈ dot_S3000x128_S128x1_S3000x1_1_0_0_1_n_n.lhsNonContracting by decide)]
  rfl
theorem lhsB_1 (i : S3000x1.Idx) (q : dot_S3000x128_S128x1_S3000x1_1_0_0_1_n_n.contr.Idx) :
    (dot_S3000x128_S128x1_S3000x1_1_0_0_1_n_n.lhsIdx i q 1).val = (q ⟨0, by decide⟩).val :=
  dot_S3000x128_S128x1_S3000x1_1_0_0_1_n_n.lhsIdx_val_of_single rfl i q
theorem rhsB_0 (i : S3000x1.Idx) (q : dot_S3000x128_S128x1_S3000x1_1_0_0_1_n_n.contr.Idx) :
    (dot_S3000x128_S128x1_S3000x1_1_0_0_1_n_n.rhsIdx i q 0).val = (q ⟨0, by decide⟩).val :=
  dot_S3000x128_S128x1_S3000x1_1_0_0_1_n_n.rhsIdx_val_of_single rfl i q
theorem rhsB_1 (i : S3000x1.Idx) (q : dot_S3000x128_S128x1_S3000x1_1_0_0_1_n_n.contr.Idx) :
    (dot_S3000x128_S128x1_S3000x1_1_0_0_1_n_n.rhsIdx i q 1).val = (i 1).val := by
  unfold DotDims.rhsIdx
  rw [dif_neg (show ¬(1 : Fin S128x1.rank) ∈ dot_S3000x128_S128x1_S3000x1_1_0_0_1_n_n.rhsBatch by decide), dif_pos (show (1 : Fin S128x1.rank) ∈ dot_S3000x128_S128x1_S3000x1_1_0_0_1_n_n.rhsNonContracting by decide)]
  rfl

/-- Entry `(p, c)` of the product into a zero accumulator is `Σ_k l(p, k) · r(k, c)`. -/
theorem mmB_apply (l : FVec Ideal S3000x128 .bf16) (r : FVec Ideal S128x1 .bf16) (p : Fin 3000) (c : Fin 1) :
    matmul dot_S3000x128_S128x1_S3000x1_1_0_0_1_n_n none l r (constant (F := Ideal) S3000x1 .f32 0x00000000#32) (ix2 p c)
      = ∑ k : Fin 128, l (ix2 p k) * r (ix2 k c) := by
  show FloatOps.matmul dot_S3000x128_S128x1_S3000x1_1_0_0_1_n_n none l r (constant (F := Ideal) S3000x1 .f32 0x00000000#32) (ix2 p c) = _
  rw [Ideal.matmul_constant_zero_apply, ← Equiv.sum_comp (ValueIdx.contrEquiv1 dot_S3000x128_S128x1_S3000x1_1_0_0_1_n_n 128 rfl rfl).symm]
  refine Finset.sum_congr rfl fun k _ => ?_
  have hk := ValueIdx.contrEquiv1_symm_val dot_S3000x128_S128x1_S3000x1_1_0_0_1_n_n 128 rfl rfl k
  have el : dot_S3000x128_S128x1_S3000x1_1_0_0_1_n_n.lhsIdx (ix2 p c) ((ValueIdx.contrEquiv1 dot_S3000x128_S128x1_S3000x1_1_0_0_1_n_n 128 rfl rfl).symm k) = ix2 p k := funext fun a => Fin.ext (by
    match a with
    | ⟨0, _⟩ => exact lhsB_0 _ _
    | ⟨1, _⟩ => exact (lhsB_1 _ _).trans hk)
  have er : dot_S3000x128_S128x1_S3000x1_1_0_0_1_n_n.rhsIdx (ix2 p c) ((ValueIdx.contrEquiv1 dot_S3000x128_S128x1_S3000x1_1_0_0_1_n_n 128 rfl rfl).symm k) = ix2 k c := funext fun a => Fin.ext (by
    match a with
    | ⟨0, _⟩ => exact (rhsB_0 _ _).trans hk
    | ⟨1, _⟩ => exact rhsB_1 _ _)
  rw [el, er]

/-! ### The sum over the three lanes, the column it is cast to, and the broadcasts -/

/-- The sum over the lanes at row `p` is `Σ_d v(p, d)`. -/
theorem laneSum_apply (v : FVec Ideal S3000x3 .f32) (hφ : FKind.Formats .f32)
    (hacc : (0x00000000#32 : BitVec FTy.f32.bits) = FKind.add.neutral .f32 hφ) (p : Fin 3000) :
    multiReduction (F := Ideal) .add [1] S3000 v 0x00000000#32 reduces_S3000x3_S3000 hφ hacc (ix1 p)
      = ∑ d : Fin 3, v (ix2 p d) := by
  refine (Ideal.multiReduction_add_single v 0x00000000#32 reduces_S3000x3_S3000 hφ hacc (ix1 p)).trans ?_
  refine Finset.sum_congr rfl fun d _ => congrArg v ?_
  funext a
  refine Fin.ext ?_
  match a with
  | ⟨0, _⟩ => rfl
  | ⟨1, _⟩ => rfl

/-- A vector of 3000 entries cast to a 3000×1 column reads, at `(p, c)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (c : Fin 1) : shapeCast ⟨2, ![a, 1]⟩ x h (ix2 p c) = x (ix1 p) :=
  shapeCast_apply x h _ _ (by
    have hc : c.val = 0 := by omega
    rw [Shape.rowMajor_val_two, Shape.rowMajor_val_one]
    show p.val = p.val * 1 + c.val
    rw [hc, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The pointwise functions read at an entry -/

/-- The logistic function of a block at an entry is the logistic function of the entry. -/
theorem logistic_apply {s : Shape} {φ : FTy} (a : FVec Ideal s φ) (i : s.Idx) : logistic a i = Ideal.logistic (a i) := rfl
/-- The square root of a block at an entry is the square root of the entry. -/
theorem sqrt_apply {s : Shape} {φ : FTy} (a : FVec Ideal s φ) (i : s.Idx) : sqrt a i = Ideal.sqrt (a i) := rfl

/-! ## The payloads read at an entry -/

/-- The difference block cast to its own shape is itself. -/
theorem pay3_eq (x2 : Vec Ideal S3000x3 .f32) : k0_pay3 (F := Ideal) x2 = x2 := by
  unfold k0_pay3
  exact shapeCast_self _ _

/-- The squared-length column at row `p` is `rad` of row `p` of the difference block. -/
theorem pay4_apply (x2 : Vec Ideal S3000x3 .f32) (p : Fin 3000) :
    k0_pay4 (F := Ideal) x2 (ix2 p (0 : Fin 1)) = Cert.Spec.rad (fun d => x2 (ix2 p d)) := by
  unfold k0_pay4
  simp only [pay3_eq, shapeCast_a_a1_apply]
  exact laneSum_apply _ _ _ p

/-- The unit-difference block at `(p, d)`. -/
theorem pay5_apply (x2 : Vec Ideal S3000x3 .f32) (p : Fin 3000) (d : Fin 3) :
    k0_pay5 (F := Ideal) x2 (ix2 p d) = Cert.Spec.unitDiff (fun d => x2 (ix2 p d)) d := by
  unfold k0_pay5
  simp only [pay3_eq, divf_apply, broadcastTo_a1_ab_apply, addf_apply, sqrt_apply, broadcast_apply, pay4_apply]
  rfl

/-- The first edge layer after its activation at `(p, j)`. -/
theorem pay6_apply (x0 x1 : Vec Ideal S3000x128 .f32) (x2 : Vec Ideal S3000x3 .f32) (x3 x4 : Vec Ideal S128x128 .f32)
    (x5 x6 : Vec Ideal S1x128 .f32) (p : Fin 3000) (j : Fin 128) :
    k0_pay6 (F := Ideal) x0 x1 x2 x3 x4 x5 x6 (ix2 p j)
      = Cert.Spec.silu (Cert.Spec.h1 (fun k => x0 (ix2 p k)) (fun k => x1 (ix2 p k)) (fun d => x2 (ix2 p d))
          (fun k j => x3 (ix2 k j)) (fun k j => x4 (ix2 k j)) (fun j => x5 (ix2 0 j)) (fun j => x6 (ix2 0 j)) j) := by
  unfold k0_pay6
  simp only [shapeCast_self, mulf_apply, addf_apply, logistic_apply, mmA_apply, truncf_apply, broadcastTo_a1_ab_apply,
    broadcastTo_1b_ab_apply, pay4_apply]
  rfl

/-- The message block at `(p, j)`, over any block of activations of the first layer. -/
theorem pay1_apply (v36 : FVec Ideal S3000x128 .f32) (x7 : Vec Ideal S128x128 .f32) (x8 : Vec Ideal S1x128 .f32)
    (p : Fin 3000) (j : Fin 128) :
    k0_pay1 (F := Ideal) v36 x7 x8 (ix2 p j)
      = Cert.Spec.silu (Cert.Spec.lin (fun k => v36 (ix2 p k)) (fun k j => x7 (ix2 k j)) (fun j => x8 (ix2 0 j)) j) := by
  unfold k0_pay1
  simp only [shapeCast_self, mulf_apply, addf_apply, logistic_apply, mmA_apply, truncf_apply, broadcastTo_1b_ab_apply]
  rfl

/-- The weighted-difference block at `(p, d)`, over any block of unit differences and any block of activations. -/
theorem pay2_apply (v13 : FVec Ideal S3000x3 .f32) (v36 : FVec Ideal S3000x128 .f32) (x7 : Vec Ideal S128x128 .f32)
    (x8 : Vec Ideal S1x128 .f32) (x9 : Vec Ideal S128x128 .f32) (x10 : Vec Ideal S1x128 .f32) (x11 : Vec Ideal S128x1 .f32)
    (x12 : Vec Ideal S1x1 .f32) (p : Fin 3000) (d : Fin 3) :
    k0_pay2 (F := Ideal) v13 v36 x7 x8 x9 x10 x11 x12 (ix2 p d)
      = v13 (ix2 p d) * Cert.Spec.gate (fun k => k0_pay1 (F := Ideal) v36 x7 x8 (ix2 p k)) (fun k j => x9 (ix2 k j))
          (fun j => x10 (ix2 0 j)) (fun k => x11 (ix2 k 0)) (x12 (ix2 0 0)) := by
  unfold k0_pay2
  simp only [shapeCast_self, mulf_apply, addf_apply, logistic_apply, mmA_apply, mmB_apply, truncf_apply,
    broadcastTo_a1_ab_apply, broadcastTo_1b_ab_apply]
  rfl

/-! ## The two stored values -/

/-- The stored message block at `(p, j)`. -/
theorem pay_msg (x0 x1 : Vec Ideal S3000x128 .f32) (x2 : Vec Ideal S3000x3 .f32) (x3 x4 : Vec Ideal S128x128 .f32)
    (x5 x6 : Vec Ideal S1x128 .f32) (x7 : Vec Ideal S128x128 .f32) (x8 : Vec Ideal S1x128 .f32) (p : Fin 3000) (j : Fin 128) :
    k0_pay1 (F := Ideal) (k0_pay6 x0 x1 x2 x3 x4 x5 x6) x7 x8 (ix2 p j)
      = Cert.Spec.msg (fun k => x0 (ix2 p k)) (fun k => x1 (ix2 p k)) (fun d => x2 (ix2 p d))
          (fun k j => x3 (ix2 k j)) (fun k j => x4 (ix2 k j)) (fun j => x5 (ix2 0 j)) (fun j => x6 (ix2 0 j))
          (fun k j => x7 (ix2 k j)) (fun j => x8 (ix2 0 j)) j := by
  refine (pay1_apply _ x7 x8 p j).trans ?_
  unfold Cert.Spec.msg
  simp only [pay6_apply]

/-- The stored weighted-difference block at `(p, d)`. -/
theorem pay_wd (x0 x1 : Vec Ideal S3000x128 .f32) (x2 : Vec Ideal S3000x3 .f32) (x3 x4 : Vec Ideal S128x128 .f32)
    (x5 x6 : Vec Ideal S1x128 .f32) (x7 : Vec Ideal S128x128 .f32) (x8 : Vec Ideal S1x128 .f32)
    (x9 : Vec Ideal S128x128 .f32) (x10 : Vec Ideal S1x128 .f32) (x11 : Vec Ideal S128x1 .f32) (x12 : Vec Ideal S1x1 .f32)
    (p : Fin 3000) (d : Fin 3) :
    k0_pay2 (F := Ideal) (k0_pay5 x2) (k0_pay6 x0 x1 x2 x3 x4 x5 x6) x7 x8 x9 x10 x11 x12 (ix2 p d)
      = Cert.Spec.wd (fun k => x0 (ix2 p k)) (fun k => x1 (ix2 p k)) (fun d => x2 (ix2 p d))
          (fun k j => x3 (ix2 k j)) (fun k j => x4 (ix2 k j)) (fun j => x5 (ix2 0 j)) (fun j => x6 (ix2 0 j))
          (fun k j => x7 (ix2 k j)) (fun j => x8 (ix2 0 j))
          (fun k j => x9 (ix2 k j)) (fun j => x10 (ix2 0 j)) (fun k => x11 (ix2 k 0)) (x12 (ix2 0 0)) d := by
  refine (pay2_apply _ _ x7 x8 x9 x10 x11 x12 p d).trans ?_
  unfold Cert.Spec.wd
  rw [pay5_apply, funext fun k => pay_msg x0 x1 x2 x3 x4 x5 x6 x7 x8 p k]

end Cert.KernelIdeal.EdgePay

end
-- ==== Proof.EdgeArr.lean ====
/-
  From blocks to arrays, the edge region. Grid point `t` stages rows `3000 t … 3000 t + 2999` of the three row-blocked
  inputs and the whole of every weight array, and writes back rows `3000 t … 3000 t + 2999` of the two outputs; the 200
  blocks tile the 600000 rows, so each output array is one function of the input arrays, entry by entry.
-/
import proofs.«168844_j68195490726193_1_alg».proof.Proof.Arrays
import proofs.«168844_j68195490726193_1_alg».proof.Proof.EdgePay
import Idealize.ShloMosaic.Lib.Pipeline.Value

set_option maxRecDepth 16384

noncomputable section

namespace Cert.KernelIdeal.EdgeArr

open Idealize.ShloMosaic Idealize.ShloMosaic.TcCoe Idealize.ShloMosaic.ValueIdx Idealize.SL.Sem
open Cert.KernelIdeal Cert.KernelIdeal.Gen Cert.KernelIdeal.GenP Cert.KernelIdeal.Arr
open Idealize.ShloMosaic.Pipeline (Dat Cfg Window)

-- the TensorCore's buffer contents when the region is entered
variable (V : (c : Dev nD) → (b : Ref sig .tc) → Buf (Elt Ideal) ((c : Thread nD τ).loc b))

/-- The zero offsets of a whole-block access, however the zeros are spelt. -/
theorem hz : (![0, 0] : Fin 2 → Nat) = fun _ => 0 := funext fun a => by fin_cases a <;> rfl

/-- The five row-blocked windows (the two feature blocks, the difference block, the two outputs) sit at block row `t`,
    block column 0, at grid point `t`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- The ten weight windows sit at block (0, 0) at every grid point: each stages its whole array. -/
theorem idx_weights : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- The row of the 600000-row arrays that grid point `t` stages at row `p` of its block. -/
def row (t : Fin cfg0.N) (p : Fin 3000) : Fin 600000 :=
  ⟨3000 * t.val + p.val, by
    have ht : t.val < 200 := Nat.lt_of_lt_of_eq t.isLt N_0
    have hp : p.val < 3000 := p.isLt
    omega⟩

/-- Where entry `(p, q)` of the message block of point `t` sits in the message array. -/
theorem emb_msg (t : Fin cfg0.N) (p : Fin 3000) (q : Fin 128) :
    ((cfg0.win 13).blk t).view.emb (ix2 p q) = (ix2 (row t p) q : S600000x128.Idx) := by
  obtain ⟨-, -, -, -, -, -, e0, e1, -, -⟩ := idx_rows t
  funext a; apply Fin.ext
  match a with
  | ⟨0, _⟩ => show win0_13.index t (0 : Fin 2) * 3000 + 1 * p.val = 3000 * t.val + p.val; omega
  | ⟨1, _⟩ => show win0_13.index t (1 : Fin 2) * 128 + 1 * q.val = q.val; omega

/-- Where entry `(p, d)` of the weighted-difference block of point `t` sits in its array. -/
theorem emb_wd (t : Fin cfg0.N) (p : Fin 3000) (d : Fin 3) :
    ((cfg0.win 14).blk t).view.emb (ix2 p d) = (ix2 (row t p) d : S600000x3.Idx) := by
  obtain ⟨-, -, -, -, -, -, -, -, e0, e1⟩ := idx_rows t
  funext a; apply Fin.ext
  match a with
  | ⟨0, _⟩ => show win0_14.index t (0 : Fin 2) * 3000 + 1 * p.val = 3000 * t.val + p.val; omega
  | ⟨1, _⟩ => show win0_14.index t (1 : Fin 2) * 3 + 1 * d.val = d.val; omega

/-! ## The input blocks as rows of their arrays -/

/-- Row `p` of the first feature block of point `t` is row `3000 t + p` of its array. -/
theorem blk_hr (c : Dev nD) (t : Fin cfg0.N) (p : Fin 3000) (k : Fin 128) :
    (iblk0 V c 0 t : Vec Ideal S3000x128 .f32) (ix2 p k) = hrA V c (ix2 (row t p) k) := by
  obtain ⟨e0, e1, -⟩ := idx_rows t
  show hrA V c (((cfg0.win 0).blk t).view.emb (ix2 p k)) = hrA V c (ix2 (row t p) k)
  refine congrArg (hrA V c) ?_
  funext a; apply Fin.ext
  match a with
  | ⟨0, _⟩ => show win0_0.index t (0 : Fin 2) * 3000 + 1 * p.val = 3000 * t.val + p.val; omega
  | ⟨1, _⟩ => show win0_0.index t (1 : Fin 2) * 128 + 1 * k.val = k.val; omega

/-- Row `p` of the second feature block of point `t` is row `3000 t + p` of its array. -/
theorem blk_hc (c : Dev nD) (t : Fin cfg0.N) (p : Fin 3000) (k : Fin 128) :
    (iblk0 V c 1 t : Vec Ideal S3000x128 .f32) (ix2 p k) = hcA V c (ix2 (row t p) k) := by
  obtain ⟨-, -, e0, e1, -⟩ := idx_rows t
  show hcA V c (((cfg0.win 1).blk t).view.emb (ix2 p k)) = hcA V c (ix2 (row t p) k)
  refine congrArg (hcA V c) ?_
  funext a; apply Fin.ext
  match a with
  | ⟨0, _⟩ => show win0_1.index t (0 : Fin 2) * 3000 + 1 * p.val = 3000 * t.val + p.val; omega
  | ⟨1, _⟩ => show win0_1.index t (1 : Fin 2) * 128 + 1 * k.val = k.val; omega

/-- Row `p` of the difference block of point `t` is row `3000 t + p` of its array. -/
theorem blk_df (c : Dev nD) (t : Fin cfg0.N) (p : Fin 3000) (d : Fin 3) :
    (iblk0 V c 2 t : Vec Ideal S3000x3 .f32) (ix2 p d) = dfA V c (ix2 (row t p) d) := by
  obtain ⟨-, -, -, -, e0, e1, -⟩ := idx_rows t
  show dfA V c (((cfg0.win 2).blk t).view.emb (ix2 p d)) = dfA V c (ix2 (row t p) d)
  refine congrArg (dfA V c) ?_
  funext a; apply Fin.ext
  match a with
  | ⟨0, _⟩ => show win0_2.index t (0 : Fin 2) * 3000 + 1 * p.val = 3000 * t.val + p.val; omega
  | ⟨1, _⟩ => show win0_2.index t (1 : Fin 2) * 3 + 1 * d.val = d.val; omega

/-- A weight block is its whole array, at every point: the block index is (0, 0) and the block has the array's extents. -/
theorem blk_wr (c : Dev nD) (t : Fin cfg0.N) : (iblk0 V c 3 t : Vec Ideal S128x128 .f32) = wrA V c := by
  obtain ⟨e0, e1, -⟩ := idx_weights t
  funext y
  show wrA V c (((cfg0.win 3).blk t).view.emb y) = wrA V c y
  refine congrArg (wrA V c) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk_wc (c : Dev nD) (t : Fin cfg0.N) : (iblk0 V c 4 t : Vec Ideal S128x128 .f32) = wcA V c := by
  obtain ⟨-, -, e0, e1, -⟩ := idx_weights t
  funext y
  show wcA V c (((cfg0.win 4).blk t).view.emb y) = wcA V c y
  refine congrArg (wcA V c) ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem blk_wrad (c : Dev nD) (t : Fin cfg0.N) : (iblk0 V c 5 t : Vec Ideal S1x128 .f32) = wradA V c := by
  obtain ⟨-, -, -, -, e0, e1, -⟩ := idx_weights t
  funext y
  show wradA V c (((cfg0.win 5).blk t).view.emb y) = wradA V c y
  refine congrArg (wradA V c) ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem blk_b1 (c : Dev nD) (t : Fin cfg0.N) : (iblk0 V c 6 t : Vec Ideal S1x128 .f32) = b1A V c := by
  obtain ⟨-, -, -, -, -, -, e0, e1, -⟩ := idx_weights t
  funext y
  show b1A V c (((cfg0.win 6).blk t).view.emb y) = b1A V c y
  refine congrArg (b1A V c) ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem blk_w2 (c : Dev nD) (t : Fin cfg0.N) : (iblk0 V c 7 t : Vec Ideal S128x128 .f32) = w2A V c := by
  obtain ⟨-, -, -, -, -, -, -, -, e0, e1, -⟩ := idx_weights t
  funext y
  show w2A V c (((cfg0.win 7).blk t).view.emb y) = w2A V c y
  refine congrArg (w2A V c) ?_
  funext a; apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem blk_b2 (c : Dev nD) (t : Fin cfg0.N) : (iblk0 V c 8 t : Vec Ideal S1x128 .f32) = b2A V c := by
  obtain ⟨-, -, -, -, -, -, -, -, -, -, e0, e1, -⟩ := idx_weights t
  funext y
  show b2A V c (((cfg0.win 8).blk t).view.emb y) = b2A V c y
  refine congrArg (b2A V c) ?_
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk_wc1 (c : Dev nD) (t : Fin cfg0.N) : (iblk0 V c 9 t : Vec Ideal S128x128 .f32) = wc1A V c := by
  obtain ⟨-, -, -, -, -, -, -, -, -, -, -, -, e0, e1, -⟩ := idx_weights t
  funext y
  show wc1A V c (((cfg0.win 9).blk t).view.emb y) = wc1A V c y
  refine congrArg (wc1A V c) ?_
  funext a; apply Fin.ext
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem blk_bc1 (c : Dev nD) (t : Fin cfg0.N) : (iblk0 V c 10 t : Vec Ideal S1x128 .f32) = bc1A V c := by
  obtain ⟨-, -, -, -, -, -, -, -, -, -, -, -, -, -, e0, e1, -⟩ := idx_weights t
  funext y
  show bc1A V c (((cfg0.win 10).blk t).view.emb y) = bc1A V c y
  refine congrArg (bc1A V c) ?_
  funext a; apply Fin.ext
  match a with
  | ⟨0, _⟩ => show win0_10.index t (0 : Fin 2) * 1 + 1 * (y 0).val = (y 0).val; omega
  | ⟨1, _⟩ => show win0_10.index t (1 : Fin 2) * 128 + 1 * (y 1).val = (y 1).val; omega

theorem blk_wc2 (c : Dev nD) (t : Fin cfg0.N) : (iblk0 V c 11 t : Vec Ideal S128x1 .f32) = wc2A V c := by
  obtain ⟨-, -, -, -, -, -, -, -, -, -, -, -, -, -, -, -, e0, e1, -⟩ := idx_weights t
  funext y
  show wc2A V c (((cfg0.win 11).blk t).view.emb y) = wc2A V c y
  refine congrArg (wc2A V c) ?_
  funext a; apply Fin.ext
  match a with
  | ⟨0, _⟩ => show win0_11.index t (0 : Fin 2) * 128 + 1 * (y 0).val = (y 0).val; omega
  | ⟨1, _⟩ => show win0_11.index t (1 : Fin 2) * 1 + 1 * (y 1).val = (y 1).val; omega

theorem blk_bc2 (c : Dev nD) (t : Fin cfg0.N) : (iblk0 V c 12 t : Vec Ideal S1x1 .f32) = bc2A V c := by
  obtain ⟨-, -, -, -, -, -, -, -, -, -, -, -, -, -, -, -, -, -, e0, e1⟩ := idx_weights t
  funext y
  show bc2A V c (((cfg0.win 12).blk t).view.emb y) = bc2A V c y
  refine congrArg (bc2A V c) ?_
  funext a; apply Fin.ext
  match a with
  | ⟨0, _⟩ => show win0_12.index t (0 : Fin 2) * 1 + 1 * (y 0).val = (y 0).val; omega
  | ⟨1, _⟩ => show win0_12.index t (1 : Fin 2) * 1 + 1 * (y 1).val = (y 1).val; omega

/-! ## One stored entry as the row function of the arrays -/

/-- The stored message at `(p, q)`, when row `p` of each row block is row `r` of its array and each weight block is its
    array: the message of edge `r`. -/
theorem msg_entry (x0 x1 : Vec Ideal S3000x128 .f32) (x2 : Vec Ideal S3000x3 .f32) (x3 x4 : Vec Ideal S128x128 .f32)
    (x5 x6 : Vec Ideal S1x128 .f32) (x7 : Vec Ideal S128x128 .f32) (x8 : Vec Ideal S1x128 .f32)
    (A0 A1 : Vec Ideal S600000x128 .f32) (A2 : Vec Ideal S600000x3 .f32) (A3 A4 : Vec Ideal S128x128 .f32)
    (A5 A6 : Vec Ideal S1x128 .f32) (A7 : Vec Ideal S128x128 .f32) (A8 : Vec Ideal S1x128 .f32)
    (r : Fin 600000) (p : Fin 3000) (q : Fin 128)
    (h0 : ∀ k : Fin 128, x0 (ix2 p k) = A0 (ix2 r k)) (h1 : ∀ k : Fin 128, x1 (ix2 p k) = A1 (ix2 r k))
    (h2 : ∀ d : Fin 3, x2 (ix2 p d) = A2 (ix2 r d))
    (h3 : x3 = A3) (h4 : x4 = A4) (h5 : x5 = A5) (h6 : x6 = A6) (h7 : x7 = A7) (h8 : x8 = A8) :
    k0_pay1 (F := Ideal) (k0_pay6 x0 x1 x2 x3 x4 x5 x6) x7 x8 (ix2 p q)
      = Cert.Spec.msg (fun k => A0 (ix2 r k)) (fun k => A1 (ix2 r k)) (fun d => A2 (ix2 r d))
          (fun k j => A3 (ix2 k j)) (fun k j => A4 (ix2 k j)) (fun j => A5 (ix2 0 j)) (fun j => A6 (ix2 0 j))
          (fun k j => A7 (ix2 k j)) (fun j => A8 (ix2 0 j)) q := by
  subst h3 h4 h5 h6 h7 h8
  refine (EdgePay.pay_msg x0 x1 x2 x3 x4 x5 x6 x7 x8 p q).trans ?_
  simp only [h0, h1, h2]

/-- The stored weighted difference at `(p, d)`, under the same readings: the weighted difference of edge `r`. -/
theorem wd_entry (x0 x1 : Vec Ideal S3000x128 .f32) (x2 : Vec Ideal S3000x3 .f32) (x3 x4 : Vec Ideal S128x128 .f32)
    (x5 x6 : Vec Ideal S1x128 .f32) (x7 : Vec Ideal S128x128 .f32) (x8 : Vec Ideal S1x128 .f32)
    (x9 : Vec Ideal S128x128 .f32) (x10 : Vec Ideal S1x128 .f32) (x11 : Vec Ideal S128x1 .f32) (x12 : Vec Ideal S1x1 .f32)
    (A0 A1 : Vec Ideal S600000x128 .f32) (A2 : Vec Ideal S600000x3 .f32) (A3 A4 : Vec Ideal S128x128 .f32)
    (A5 A6 : Vec Ideal S1x128 .f32) (A7 : Vec Ideal S128x128 .f32) (A8 : Vec Ideal S1x128 .f32)
    (A9 : Vec Ideal S128x128 .f32) (A10 : Vec Ideal S1x128 .f32) (A11 : Vec Ideal S128x1 .f32) (A12 : Vec Ideal S1x1 .f32)
    (r : Fin 600000) (p : Fin 3000) (d : Fin 3)
    (h0 : ∀ k : Fin 128, x0 (ix2 p k) = A0 (ix2 r k)) (h1 : ∀ k : Fin 128, x1 (ix2 p k) = A1 (ix2 r k))
    (h2 : ∀ d : Fin 3, x2 (ix2 p d) = A2 (ix2 r d))
    (h3 : x3 = A3) (h4 : x4 = A4) (h5 : x5 = A5) (h6 : x6 = A6) (h7 : x7 = A7) (h8 : x8 = A8)
    (h9 : x9 = A9) (h10 : x10 = A10) (h11 : x11 = A11) (h12 : x12 = A12) :
    k0_pay2 (F := Ideal) (k0_pay5 x2) (k0_pay6 x0 x1 x2 x3 x4 x5 x6) x7 x8 x9 x10 x11 x12 (ix2 p d)
      = Cert.Spec.wd (fun k => A0 (ix2 r k)) (fun k => A1 (ix2 r k)) (fun d => A2 (ix2 r d))
          (fun k j => A3 (ix2 k j)) (fun k j => A4 (ix2 k j)) (fun j => A5 (ix2 0 j)) (fun j => A6 (ix2 0 j))
          (fun k j => A7 (ix2 k j)) (fun j => A8 (ix2 0 j))
          (fun k j => A9 (ix2 k j)) (fun j => A10 (ix2 0 j)) (fun k => A11 (ix2 k 0)) (A12 (ix2 0 0)) d := by
  subst h3 h4 h5 h6 h7 h8 h9 h10 h11 h12
  refine (EdgePay.pay_wd x0 x1 x2 x3 x4 x5 x6 x7 x8 x9 x10 x11 x12 p d).trans ?_
  simp only [h0, h1, h2]

/-! ## What a point writes back -/

/-- WHAT POINT `t` WRITES BACK to the message array is block `t` of `msgG`. -/
theorem flushed_msg (c : Dev nD) (t : Fin cfg0.N) :
    (dat0 V c).flushed 13 t = ((cfg0.win 13).blk t).view.read (Elt Ideal) (msgG V c) := by
  show (cfg0.win 13).cut (grid0.coords t) ((dat0 V c).after 13 t) = _
  rw [after0_13]
  unfold out0_13
  rw [View.canon_unit_zero hz]
  simp only [View.ld_unit_zero (S := S3000x128) hz, View.ld_unit_zero (S := S3000x3) hz,
    View.ld_unit_zero (S := S128x128) hz, View.ld_unit_zero (S := S1x128) hz]
  funext y
  obtain ⟨p, q, rfl⟩ : ∃ (p : Fin 3000) (q : Fin 128), y = ix2 p q := ⟨y 0, y 1, eq_ix2 y⟩
  rw [View.read_apply, emb_msg t p q]
  exact msg_entry (iblk0 V c 0 t) (iblk0 V c 1 t) (iblk0 V c 2 t) (iblk0 V c 3 t) (iblk0 V c 4 t) (iblk0 V c 5 t)
    (iblk0 V c 6 t) (iblk0 V c 7 t) (iblk0 V c 8 t)
    (hrA V c) (hcA V c) (dfA V c) (wrA V c) (wcA V c) (wradA V c) (b1A V c) (w2A V c) (b2A V c) (row t p) p q
    (blk_hr V c t p) (blk_hc V c t p) (blk_df V c t p) (blk_wr V c t) (blk_wc V c t) (blk_wrad V c t) (blk_b1 V c t)
    (blk_w2 V c t) (blk_b2 V c t)

/-- WHAT POINT `t` WRITES BACK to the weighted-difference array is block `t` of `wdG`. -/
theorem flushed_wd (c : Dev nD) (t : Fin cfg0.N) :
    (dat0 V c).flushed 14 t = ((cfg0.win 14).blk t).view.read (Elt Ideal) (wdG V c) := by
  show (cfg0.win 14).cut (grid0.coords t) ((dat0 V c).after 14 t) = _
  rw [after0_14]
  unfold out0_14
  rw [View.canon_unit_zero hz]
  simp only [View.ld_unit_zero (S := S3000x128) hz, View.ld_unit_zero (S := S3000x3) hz,
    View.ld_unit_zero (S := S128x128) hz, View.ld_unit_zero (S := S1x128) hz,
    View.ld_unit_zero (S := S128x1) hz, View.ld_unit_zero (S := S1x1) hz]
  funext y
  obtain ⟨p, d, rfl⟩ : ∃ (p : Fin 3000) (d : Fin 3), y = ix2 p d := ⟨y 0, y 1, eq_ix2 y⟩
  rw [View.read_apply, emb_wd t p d]
  exact wd_entry (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) (iblk0 V c 12 t)
    (hrA V c) (hcA V c) (dfA V c) (wrA V c) (wcA V c) (wradA V c) (b1A V c) (w2A V c) (b2A V c)
    (wc1A V c) (bc1A V c) (wc2A V c) (bc2A V c) (row t p) p d
    (blk_hr V c t p) (blk_hc V c t p) (blk_df V c t p) (blk_wr V c t) (blk_wc V c t) (blk_wrad V c t) (blk_b1 V c t)
    (blk_w2 V c t) (blk_b2 V c t) (blk_wc1 V c t) (blk_bc1 V c t) (blk_wc2 V c t) (blk_bc2 V c t)

/-! ## The blocks tile the arrays -/

/-- An index of the message array is in point `t`'s block iff each coordinate is in the block's range on its axis. -/
theorem mem_blk_msg (t : Fin cfg0.N) (i : S600000x128.Idx) :
    i ∈ ((cfg0.win 13).blk t).view.set ↔ ∀ a : Fin 2, win0_13.index t a * S3000x128.size a ≤ (i a).val
      ∧ (i a).val < win0_13.index t a * S3000x128.size a + S3000x128.size a := by
  show i ∈ ((View.whole main_v40_0).slice (win0_13.rect t)).set ↔ _
  rw [View.set_slice_whole, Rect.mem_set_unit]
  exact Iff.rfl

/-- The same for the weighted-difference array. -/
theorem mem_blk_wd (t : Fin cfg0.N) (i : S600000x3.Idx) :
    i ∈ ((cfg0.win 14).blk t).view.set ↔ ∀ a : Fin 2, win0_14.index t a * S3000x3.size a ≤ (i a).val
      ∧ (i a).val < win0_14.index t a * S3000x3.size a + S3000x3.size a := by
  show i ∈ ((View.whole main_v40_1).slice (win0_14.rect t)).set ↔ _
  rw [View.set_slice_whole, Rect.mem_set_unit]
  exact Iff.rfl

/-- Every entry of the message array is in the block of the point `row / 3000`, which writes back. -/
theorem cover_msg (i : S600000x128.Idx) :
    ∃ t : Fin cfg0.N, (cfg0.win 13).flush t = true ∧ i ∈ ((cfg0.win 13).blk t).view.set := by
  have hi0 : (i 0).val < 600000 := (i 0).isLt
  have hi1 : (i 1).val < 128 := (i 1).isLt
  obtain ⟨t, ht⟩ : ∃ t : Fin cfg0.N, t.val = (i 0).val / 3000 :=
    ⟨⟨(i 0).val / 3000, Nat.lt_of_lt_of_eq (by omega : (i 0).val / 3000 < 200) N_0.symm⟩, rfl⟩
  obtain ⟨-, -, -, -, -, -, e0, e1, -, -⟩ := idx_rows t
  refine ⟨t, flush0_13 t, ?_⟩
  rw [mem_blk_msg]
  intro a
  match a with
  | ⟨0, _⟩ =>
    show win0_13.index t (0 : Fin 2) * 3000 ≤ (i 0).val ∧ (i 0).val < win0_13.index t (0 : Fin 2) * 3000 + 3000
    omega
  | ⟨1, _⟩ =>
    show win0_13.index t (1 : Fin 2) * 128 ≤ (i 1).val ∧ (i 1).val < win0_13.index t (1 : Fin 2) * 128 + 128
    omega

/-- Every entry of the weighted-difference array is in the block of the point `row / 3000`, which writes back. -/
theorem cover_wd (i : S600000x3.Idx) :
    ∃ t : Fin cfg0.N, (cfg0.win 14).flush t = true ∧ i ∈ ((cfg0.win 14).blk t).view.set := by
  have hi0 : (i 0).val < 600000 := (i 0).isLt
  have hi1 : (i 1).val < 3 := (i 1).isLt
  obtain ⟨t, ht⟩ : ∃ t : Fin cfg0.N, t.val = (i 0).val / 3000 :=
    ⟨⟨(i 0).val / 3000, Nat.lt_of_lt_of_eq (by omega : (i 0).val / 3000 < 200) N_0.symm⟩, rfl⟩
  obtain ⟨-, -, -, -, -, -, -, -, e0, e1⟩ := idx_rows t
  refine ⟨t, flush0_14 t, ?_⟩
  rw [mem_blk_wd]
  intro a
  match a with
  | ⟨0, _⟩ =>
    show win0_14.index t (0 : Fin 2) * 3000 ≤ (i 0).val ∧ (i 0).val < win0_14.index t (0 : Fin 2) * 3000 + 3000
    omega
  | ⟨1, _⟩ =>
    show win0_14.index t (1 : Fin 2) * 3 ≤ (i 1).val ∧ (i 1).val < win0_14.index t (1 : Fin 2) * 3 + 3
    omega

/-! ## The arrays after the region -/

/-- THE MESSAGE ARRAY after the edge region: every entry is covered by exactly the block of its row's grid point. -/
theorem msg_array (c : Dev nD) : (dat0 V c).arrAt 13 cfg0.N = msgG V c :=
  (dat0 V c).arrAt_eq_of_cover 13 (msgG V c) (fun t _ => flushed_msg V c t) cover_msg

/-- THE WEIGHTED-DIFFERENCE ARRAY after the edge region. -/
theorem wd_array (c : Dev nD) : (dat0 V c).arrAt 14 cfg0.N = wdG V c :=
  (dat0 V c).arrAt_eq_of_cover 14 (wdG V c) (fun t _ => flushed_wd V c t) cover_wd

end Cert.KernelIdeal.EdgeArr

end
-- ==== Proof.NodePay.lean ====
/-
  The node kernel's stored value, read at one entry: row `p` of the output block is the residual update
  `Cert.Spec.node` of row `p` of the feature block and of the aggregated-message block.
-/
import proofs.«168844_j68195490726193_1_alg».proof.Proof.Gen.KernelIdeal.Skeleton
import proofs.«168844_j68195490726193_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodePay

open Idealize.ShloMosaic Idealize.ShloMosaic.ValueIdx Cert.KernelIdeal Cert.KernelIdeal.Gen

/-! ## The operand indices of the 5000×128 by 128×128 product

At the output entry `i` and the contraction index `q` the left operand is read at (row of `i`, `q`) and the right
operand at (`q`, column of `i`): one lemma per operand axis. -/

theorem lhs_ax0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_ax1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_ax0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_ax1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product accumulated into the zero block, at `(p, j)`: the sum over the 128 contracted entries of row `p` of
    the left operand times column `j` of the right operand. -/
theorem matmul_at (l : FVec Ideal S5000x128 .bf16) (r : FVec Ideal S128x128 .bf16) (p : Fin 5000) (j : Fin 128) :
    matmul dot_S5000x128_S128x128_S5000x128_1_0_0_1_n_n none l r (constant S5000x128 .f32 0x00000000#32) (ix2 p j)
      = ∑ k : Fin 128, l (ix2 p k) * r (ix2 k j) := by
  show FloatOps.matmul dot_S5000x128_S128x128_S5000x128_1_0_0_1_n_n none l r (constant S5000x128 .f32 0x00000000#32) (ix2 p j) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_ax0 _ _).trans hk
    | ⟨1, _⟩ => exact rhs_ax1 _ _)
  rw [el, er]

/-- The logistic function applied entry by entry, read at an entry. -/
theorem logistic_at {s : Shape} {φ : FTy} (a : FVec Ideal s φ) (i : s.Idx) : logistic a i = Ideal.logistic (a i) := rfl

/-- The stored output block at `(p, j)`. -/
theorem pay_node (x0 x1 : Vec Ideal S5000x128 .f32) (x2 x3 : Vec Ideal S128x128 .f32) (x4 : Vec Ideal S1x128 .f32)
    (x5 : Vec Ideal S128x128 .f32) (x6 : Vec Ideal S1x128 .f32) (p : Fin 5000) (j : Fin 128) :
    k1_pay1 (F := Ideal) x0 x1 x2 x3 x4 x5 x6 (ix2 p j)
      = Cert.Spec.node (fun k => x0 (ix2 p k)) (fun k => x1 (ix2 p k)) (fun k j => x2 (ix2 k j)) (fun k j => x3 (ix2 k j))
          (fun j => x4 (ix2 0 j)) (fun k j => x5 (ix2 k j)) (fun j => x6 (ix2 0 j)) j := by
  unfold k1_pay1
  simp only [shapeCast_self, addf_apply, mulf_apply, logistic_at, matmul_at, truncf_apply, broadcastTo_1b_ab_apply]
  rfl

end Cert.KernelIdeal.NodePay

end
-- ==== Proof.NodeArr.lean ====
/-
  From blocks to the array, the node region. Grid point `t` stages rows `5000 t … 5000 t + 4999` of the features and of
  the aggregated messages and the whole of every weight array, and writes back rows `5000 t … 5000 t + 4999` of the
  output; the 10 blocks tile the 50000 rows, so the output array is one function of the input arrays, entry by entry.
-/
import proofs.«168844_j68195490726193_1_alg».proof.Proof.Arrays
import proofs.«168844_j68195490726193_1_alg».proof.Proof.NodePay
import Idealize.ShloMosaic.Lib.Pipeline.Value

set_option maxRecDepth 16384

noncomputable section

namespace Cert.KernelIdeal.NodeArr

open Idealize.ShloMosaic Idealize.ShloMosaic.TcCoe Idealize.ShloMosaic.ValueIdx Idealize.SL.Sem
open Cert.KernelIdeal Cert.KernelIdeal.Gen Cert.KernelIdeal.GenP Cert.KernelIdeal.Arr
open Idealize.ShloMosaic.Pipeline (Dat Cfg Window)

-- the TensorCore's buffer contents when the region is entered
variable (V : (c : Dev nD) → (b : Ref sig .tc) → Buf (Elt Ideal) ((c : Thread nD τ).loc b))

/-- The zero offsets of a rectangle that is the whole of its rank-2 shape. -/
theorem hz : (![0, 0] : Fin 2 → Nat) = fun _ => 0 := funext fun a => by fin_cases a <;> rfl

/-- The block index maps over the grid: the two row-blocked inputs and the output move with the grid point along the
    rows; every weight array is staged whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each staged block, read at an entry, is an entry of its array

Block `t` of a row-blocked array holds rows `5000 t … 5000 t + 4999`; a weight array is staged whole. -/

/-- Row `p` of block `t` of the features is row `5000 t + p` of the feature array. -/
theorem blk_h (c : Dev nD) (t : Fin cfg1.N) (p : Fin 5000) (k : Fin 128) (i : S50000x128.Idx)
    (h0 : (i 0).val = 5000 * t.val + p.val) (h1 : (i 1).val = k.val) :
    (iblk1 V c 0 t : Vec Ideal S5000x128 .f32) (ix2 p k) = hA V c i := by
  obtain ⟨e0, e1, -⟩ := idx_facts t
  show V c (Pipeline.arrRef spec1 0) (((cfg1.win 0).blk t).view.emb (ix2 p k)) = V c (Pipeline.arrRef spec1 0) i
  congr 1
  funext a; apply Fin.ext
  match a with
  | ⟨0, _⟩ => show win1_0.index t (0 : Fin 2) * 5000 + 1 * p.val = (i 0).val; omega
  | ⟨1, _⟩ => show win1_0.index t (1 : Fin 2) * 128 + 1 * k.val = (i 1).val; omega

/-- Row `p` of block `t` of the aggregated messages is row `5000 t + p` of their array. -/
theorem blk_mi (c : Dev nD) (t : Fin cfg1.N) (p : Fin 5000) (k : Fin 128) (i : S50000x128.Idx)
    (h0 : (i 0).val = 5000 * t.val + p.val) (h1 : (i 1).val = k.val) :
    (iblk1 V c 1 t : Vec Ideal S5000x128 .f32) (ix2 p k) = miA V c i := by
  obtain ⟨-, -, e0, e1, -⟩ := idx_facts t
  show V c (Pipeline.arrRef spec1 1) (((cfg1.win 1).blk t).view.emb (ix2 p k)) = V c (Pipeline.arrRef spec1 1) i
  congr 1
  funext a; apply Fin.ext
  match a with
  | ⟨0, _⟩ => show win1_1.index t (0 : Fin 2) * 5000 + 1 * p.val = (i 0).val; omega
  | ⟨1, _⟩ => show win1_1.index t (1 : Fin 2) * 128 + 1 * k.val = (i 1).val; omega

/-- The staged first-layer weights on the features are the whole array. -/
theorem blk_wh (c : Dev nD) (t : Fin cfg1.N) (k j : Fin 128) :
    (iblk1 V c 2 t : Vec Ideal S128x128 .f32) (ix2 k j) = whA V c (ix2 k j) := by
  obtain ⟨-, -, -, -, e0, e1, -⟩ := idx_facts t
  show V c (Pipeline.arrRef spec1 2) (((cfg1.win 2).blk t).view.emb (ix2 k j)) = V c (Pipeline.arrRef spec1 2) (ix2 k j)
  congr 1
  funext a; apply Fin.ext
  match a with
  | ⟨0, _⟩ => show win1_2.index t (0 : Fin 2) * 128 + 1 * k.val = k.val; omega
  | ⟨1, _⟩ => show win1_2.index t (1 : Fin 2) * 128 + 1 * j.val = j.val; omega

/-- The staged first-layer weights on the aggregated messages are the whole array. -/
theorem blk_wm (c : Dev nD) (t : Fin cfg1.N) (k j : Fin 128) :
    (iblk1 V c 3 t : Vec Ideal S128x128 .f32) (ix2 k j) = wmA V c (ix2 k j) := by
  obtain ⟨-, -, -, -, -, -, e0, e1, -⟩ := idx_facts t
  show V c (Pipeline.arrRef spec1 3) (((cfg1.win 3).blk t).view.emb (ix2 k j)) = V c (Pipeline.arrRef spec1 3) (ix2 k j)
  congr 1
  funext a; apply Fin.ext
  match a with
  | ⟨0, _⟩ => show win1_3.index t (0 : Fin 2) * 128 + 1 * k.val = k.val; omega
  | ⟨1, _⟩ => show win1_3.index t (1 : Fin 2) * 128 + 1 * j.val = j.val; omega

/-- The staged first-layer bias is the whole array. -/
theorem blk_bn1 (c : Dev nD) (t : Fin cfg1.N) (j : Fin 128) :
    (iblk1 V c 4 t : Vec Ideal S1x128 .f32) (ix2 0 j) = bn1A V c (ix2 0 j) := by
  obtain ⟨-, -, -, -, -, -, -, -, e0, e1, -⟩ := idx_facts t
  show V c (Pipeline.arrRef spec1 4) (((cfg1.win 4).blk t).view.emb (ix2 0 j)) = V c (Pipeline.arrRef spec1 4) (ix2 0 j)
  congr 1
  funext a; apply Fin.ext
  match a with
  | ⟨0, _⟩ => show win1_4.index t (0 : Fin 2) * 1 + 1 * 0 = 0; omega
  | ⟨1, _⟩ => show win1_4.index t (1 : Fin 2) * 128 + 1 * j.val = j.val; omega

/-- The staged second-layer weights are the whole array. -/
theorem blk_wn2 (c : Dev nD) (t : Fin cfg1.N) (k j : Fin 128) :
    (iblk1 V c 5 t : Vec Ideal S128x128 .f32) (ix2 k j) = wn2A V c (ix2 k j) := by
  obtain ⟨-, -, -, -, -, -, -, -, -, -, e0, e1, -⟩ := idx_facts t
  show V c (Pipeline.arrRef spec1 5) (((cfg1.win 5).blk t).view.emb (ix2 k j)) = V c (Pipeline.arrRef spec1 5) (ix2 k j)
  congr 1
  funext a; apply Fin.ext
  match a with
  | ⟨0, _⟩ => show win1_5.index t (0 : Fin 2) * 128 + 1 * k.val = k.val; omega
  | ⟨1, _⟩ => show win1_5.index t (1 : Fin 2) * 128 + 1 * j.val = j.val; omega

/-- The staged second-layer bias is the whole array. -/
theorem blk_bn2 (c : Dev nD) (t : Fin cfg1.N) (j : Fin 128) :
    (iblk1 V c 6 t : Vec Ideal S1x128 .f32) (ix2 0 j) = bn2A V c (ix2 0 j) := by
  obtain ⟨-, -, -, -, -, -, -, -, -, -, -, -, e0, e1, -⟩ := idx_facts t
  show V c (Pipeline.arrRef spec1 6) (((cfg1.win 6).blk t).view.emb (ix2 0 j)) = V c (Pipeline.arrRef spec1 6) (ix2 0 j)
  congr 1
  funext a; apply Fin.ext
  match a with
  | ⟨0, _⟩ => show win1_6.index t (0 : Fin 2) * 1 + 1 * 0 = 0; omega
  | ⟨1, _⟩ => show win1_6.index t (1 : Fin 2) * 128 + 1 * j.val = j.val; omega

/-- The residual update of row `p` of the staged blocks at point `t` is the entry of the whole-array function at
    row `5000 t + p`. -/
theorem row_eq (c : Dev nD) (t : Fin cfg1.N) (p : Fin 5000) (q : Fin 128) (i : S50000x128.Idx)
    (h0 : (i 0).val = 5000 * t.val + p.val) (h1 : (i 1).val = q.val) :
    Cert.Spec.node (fun k => (iblk1 V c 0 t : Vec Ideal S5000x128 .f32) (ix2 p k))
        (fun k => (iblk1 V c 1 t : Vec Ideal S5000x128 .f32) (ix2 p k))
        (fun k j => (iblk1 V c 2 t : Vec Ideal S128x128 .f32) (ix2 k j))
        (fun k j => (iblk1 V c 3 t : Vec Ideal S128x128 .f32) (ix2 k j))
        (fun j => (iblk1 V c 4 t : Vec Ideal S1x128 .f32) (ix2 0 j))
        (fun k j => (iblk1 V c 5 t : Vec Ideal S128x128 .f32) (ix2 k j))
        (fun j => (iblk1 V c 6 t : Vec Ideal S1x128 .f32) (ix2 0 j)) q
      = nodeG V c i := by
  obtain rfl : q = i 1 := Fin.ext h1.symm
  have e0 : (fun k => (iblk1 V c 0 t : Vec Ideal S5000x128 .f32) (ix2 p k)) = fun k => hA V c (ix2 (i 0) k) :=
    funext fun k => blk_h V c t p k (ix2 (i 0) k) h0 rfl
  have e1 : (fun k => (iblk1 V c 1 t : Vec Ideal S5000x128 .f32) (ix2 p k)) = fun k => miA V c (ix2 (i 0) k) :=
    funext fun k => blk_mi V c t p k (ix2 (i 0) k) h0 rfl
  have e2 : (fun k j => (iblk1 V c 2 t : Vec Ideal S128x128 .f32) (ix2 k j)) = fun k j => whA V c (ix2 k j) :=
    funext fun k => funext fun j => blk_wh V c t k j
  have e3 : (fun k j => (iblk1 V c 3 t : Vec Ideal S128x128 .f32) (ix2 k j)) = fun k j => wmA V c (ix2 k j) :=
    funext fun k => funext fun j => blk_wm V c t k j
  have e4 : (fun j => (iblk1 V c 4 t : Vec Ideal S1x128 .f32) (ix2 0 j)) = fun j => bn1A V c (ix2 0 j) :=
    funext fun j => blk_bn1 V c t j
  have e5 : (fun k j => (iblk1 V c 5 t : Vec Ideal S128x128 .f32) (ix2 k j)) = fun k j => wn2A V c (ix2 k j) :=
    funext fun k => funext fun j => blk_wn2 V c t k j
  have e6 : (fun j => (iblk1 V c 6 t : Vec Ideal S1x128 .f32) (ix2 0 j)) = fun j => bn2A V c (ix2 0 j) :=
    funext fun j => blk_bn2 V c t j
  rw [e0, e1, e2, e3, e4, e5, e6]
  rfl

/-- WHAT POINT `t` WRITES BACK is block `t` of the whole-array function of the arrays as the region finds them. -/
theorem flushed_eq (c : Dev nD) (t : Fin cfg1.N) :
    (dat1 V c).flushed 7 t = ((cfg1.win 7).blk t).view.read (Elt Ideal) (nodeG V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  refine (NodePay.pay_node (iblk1 V c 0 t) (iblk1 V c 1 t) (iblk1 V c 2 t) (iblk1 V c 3 t) (iblk1 V c 4 t) (iblk1 V c 5 t) (iblk1 V c 6 t) p q).trans ?_
  obtain ⟨-, -, -, -, -, -, -, -, -, -, -, -, -, -, e0, e1⟩ := idx_facts t
  refine row_eq V c t p q (((cfg1.win 7).blk t).view.emb (ix2 p q)) ?_ ?_
  · show win1_7.index t (0 : Fin 2) * 5000 + 1 * p.val = 5000 * t.val + p.val; omega
  · show win1_7.index t (1 : Fin 2) * 128 + 1 * q.val = q.val; omega

/-- An entry of the array is in point `t`'s block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v52).slice (win1_7.rect t)).set ↔ _
  rw [View.set_slice_whole, Rect.mem_set_unit]
  exact Iff.rfl

/-- THE COVER: the entry at row `r` is in the block of grid point `r / 5000`, which is written back. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, e0, e1⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- THE OUTPUT ARRAY after the node region: every entry is covered by exactly the block of its row's grid point. -/
theorem node_array (c : Dev nD) : (dat1 V c).arrAt 7 cfg1.N = nodeG V c :=
  (dat1 V c).arrAt_eq_of_cover 7 (nodeG V c) (fun t _ => flushed_eq V c t) cover

end Cert.KernelIdeal.NodeArr

end
-- ==== Proof.HostK0.lean ====
/-
  What the host operations before the edge region hand to it. The three row-blocked inputs are the reference's own
  gathered feature rows and coordinate differences (the same gathers of the same arguments); the first weight matrix
  arrives cut into its three row ranges, each bias vector as a one-row matrix; the other weight matrices are the
  arguments themselves.
-/
import proofs.«168844_j68195490726193_1_alg».proof.Proof.Arrays
import proofs.«168844_j68195490726193_1_alg».proof.Proof.RefRead
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostK0

open Idealize.ShloMosaic Idealize.ShloMosaic.TcCoe Idealize.ShloMosaic.ValueIdx Idealize.SL.Sem
open Cert.KernelIdeal Cert.KernelIdeal.Gen Cert.KernelIdeal.GenP Cert.KernelIdeal.Arr
open Idealize.ShloMosaic.Pipeline (Dat Cfg Window)

/-! ## The host stretch at any float type: each row-blocked input is the reference's stage

The stretch normalises the two rows of the edge-index argument (a negative index moved up by the node count), gathers the
feature rows and the coordinate rows through them and subtracts the two gathered coordinate arrays: operation by operation
what the reference does to the same arguments, so each equation holds by unfolding both sides to the same operations. -/

section Stretch

variable {F : FTy → Type} [FloatOps F]

/-- The feature rows gathered through the first index row. -/
theorem stretch_hr (V : Valuation τ sig (Elt F)) :
    (StableHlo.after hostOps0 V (Proc.devRef .tc main_v10) : Vec F S600000x128 .f32)
      = Cert.ReferenceIdeal.ReadP.val_main_v33 (F := F) (V (Proc.devRef .tc main_arg0)) (V (Proc.devRef .tc main_arg2)) := by
  after_results_simp
  rfl

/-- The feature rows gathered through the second index row. -/
theorem stretch_hc (V : Valuation τ sig (Elt F)) :
    (StableHlo.after hostOps0 V (Proc.devRef .tc main_v17) : Vec F S600000x128 .f32)
      = Cert.ReferenceIdeal.ReadP.val_main_v40 (F := F) (V (Proc.devRef .tc main_arg0)) (V (Proc.devRef .tc main_arg2)) := by
  after_results_simp
  rfl

/-- The coordinate rows gathered through the first index row minus those gathered through the second. -/
theorem stretch_df (V : Valuation τ sig (Elt F)) :
    (StableHlo.after hostOps0 V (Proc.devRef .tc main_v32) : Vec F S600000x3 .f32)
      = Cert.ReferenceIdeal.ReadP.val_main_v18 (F := F) (V (Proc.devRef .tc main_arg1)) (V (Proc.devRef .tc main_arg2)) := by
  after_results_simp
  rfl

/-- A row range of the 257-row matrix read at an entry: the entry of the matrix `off` rows further down. -/
theorem slice_rows (x : Vec F S257x128 .f32) (off : Nat) (h : S257x128.Slices ![off, 0] S128x128) (k j : Fin 128)
    (hk : off + k.val < 257) :
    extractStridedSlice S128x128 ![off, 0] x h (ix2 k j) = x (ix2 ⟨off + k.val, hk⟩ j) :=
  extractStridedSlice_apply ![off, 0] x h (ix2 k j) (ix2 ⟨off + k.val, hk⟩ j) (fun a => match a with
    | ⟨0, _⟩ => rfl
    | ⟨1, _⟩ => by show j.val = 0 + j.val; omega)

/-- A 128-vector reshaped to a one-row matrix, read at a column. -/
theorem row_of_vec (x : Vec F S128 .f32) (h : S128.ShapeCasts S1x128) (j : Fin 128) :
    shapeCast S1x128 x h (ix2 0 j) = x (ix1 j) :=
  shapeCast_apply x h (ix2 0 j) (ix1 j) (by
    rw [Shape.rowMajor_val_one, Shape.rowMajor_val_two]; show j.val = 0 * 128 + j.val; omega)

/-- A 1-vector reshaped to a one-by-one matrix, read at its entry. -/
theorem one_of_vec (x : Vec F S1 .f32) (h : S1.ShapeCasts S1x1) :
    shapeCast S1x1 x h (ix2 0 0) = x (ix1 0) :=
  shapeCast_apply x h (ix2 0 0) (ix1 0) (by
    rw [Shape.rowMajor_val_one, Shape.rowMajor_val_two]; rfl)

end Stretch

variable (m : (ℓ : Loc nD τ sig) → Buf (Elt Ideal) ℓ) (ρ : Dev nD → PrngReg)

/-- A buffer no operation of the host stretch before the edge region writes holds its launch contents there. -/
theorem kept (c : Dev nD) (r : Ref sig .tc)
    (hr : r ∉ [main_v0, main_v1, main_v2, main_v3, main_c, main_v4, main_v5, main_c_0, main_v6, main_v7, main_v8, main_v9, main_v10,
      main_c_1, main_v11, main_v12, main_c_2, main_v13, main_v14, main_v15, main_v16, main_v17, main_c_3, main_v18, main_v19,
      main_c_4, main_v20, main_v21, main_v22, main_v23, main_v24, main_c_5, main_v25, main_v26, main_c_6, main_v27, main_v28,
      main_v29, main_v30, main_v31, main_v32, main_v33, main_v34, main_v35, main_v36, main_v37, main_v38, main_v39]) :
    W1 m ρ c (Proc.devRef .tc r) = m ((c.tc : Thread nD τ).loc r) := by
  refine (StableHlo.after_of_writes_sub (r := r) hostOps0 (W0 m ρ c) ?_ hr).trans rfl
  simp only [hostOps0, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))

/-- The gathered features of each edge's first endpoint. -/
theorem V1_hr (c : Dev nD) : hrA (V1 m ρ) c
    = Cert.ReferenceIdeal.ReadP.val_main_v33 (F := Ideal) (m ((c.tc : Thread nD τ).loc main_arg0)) (m ((c.tc : Thread nD τ).loc main_arg2)) :=
  stretch_hr (F := Ideal) (W0 m ρ c)

/-- The gathered features of each edge's second endpoint. -/
theorem V1_hc (c : Dev nD) : hcA (V1 m ρ) c
    = Cert.ReferenceIdeal.ReadP.val_main_v40 (F := Ideal) (m ((c.tc : Thread nD τ).loc main_arg0)) (m ((c.tc : Thread nD τ).loc main_arg2)) :=
  stretch_hc (F := Ideal) (W0 m ρ c)

/-- The coordinate difference of each edge. -/
theorem V1_df (c : Dev nD) : dfA (V1 m ρ) c
    = Cert.ReferenceIdeal.ReadP.val_main_v18 (F := Ideal) (m ((c.tc : Thread nD τ).loc main_arg1)) (m ((c.tc : Thread nD τ).loc main_arg2)) :=
  stretch_df (F := Ideal) (W0 m ρ c)

/-- Rows 0 … 127 of the first edge weight matrix. -/
theorem V1_wr (c : Dev nD) (k j : Fin 128) : wrA (V1 m ρ) c (ix2 k j)
    = (m ((c.tc : Thread nD τ).loc main_arg3) : Vec Ideal S257x128 .f32) (ix2 ⟨k.val, by omega⟩ j) := by
  show W1 m ρ c (Proc.devRef .tc main_v33) (ix2 k j) = _
  dsimp only [W1, hostOps0]
  after_results
  refine (slice_rows (W0 m ρ c (Proc.devRef .tc main_arg3)) 0 slices_S257x128_S128x128_0_0 k j (by omega)).trans ?_
  exact congrArg (m ((c.tc : Thread nD τ).loc main_arg3) : Vec Ideal S257x128 .f32)
    (congrArg (fun a => ix2 a j) (Fin.ext (by show 0 + k.val = k.val; omega)))

/-- Rows 128 … 255 of the first edge weight matrix. -/
theorem V1_wc (c : Dev nD) (k j : Fin 128) : wcA (V1 m ρ) c (ix2 k j)
    = (m ((c.tc : Thread nD τ).loc main_arg3) : Vec Ideal S257x128 .f32) (ix2 ⟨128 + k.val, by omega⟩ j) := by
  show W1 m ρ c (Proc.devRef .tc main_v34) (ix2 k j) = _
  dsimp only [W1, hostOps0]
  after_results
  exact slice_rows (W0 m ρ c (Proc.devRef .tc main_arg3)) 128 slices_S257x128_S128x128_128_0 k j (by omega)

/-- Row 256 of the first edge weight matrix. -/
theorem V1_wrad (c : Dev nD) (j : Fin 128) : wradA (V1 m ρ) c (ix2 0 j)
    = (m ((c.tc : Thread nD τ).loc main_arg3) : Vec Ideal S257x128 .f32) (ix2 ⟨256, by omega⟩ j) := by
  show W1 m ρ c (Proc.devRef .tc main_v35) (ix2 0 j) = _
  dsimp only [W1, hostOps0]
  after_results
  exact extractStridedSlice_apply ![256, 0] (W0 m ρ c (Proc.devRef .tc main_arg3)) slices_S257x128_S1x128_256_0 (ix2 0 j)
    (ix2 ⟨256, by omega⟩ j) (fun a => match a with
      | ⟨0, _⟩ => rfl
      | ⟨1, _⟩ => by show j.val = 0 + j.val; omega)

/-- The first edge bias as a one-row matrix. -/
theorem V1_b1 (c : Dev nD) (j : Fin 128) : b1A (V1 m ρ) c (ix2 0 j)
    = (m ((c.tc : Thread nD τ).loc main_arg4) : Vec Ideal S128 .f32) (ix1 j) := by
  show W1 m ρ c (Proc.devRef .tc main_v36) (ix2 0 j) = _
  dsimp only [W1, hostOps0]
  after_results
  exact row_of_vec (W0 m ρ c (Proc.devRef .tc main_arg4)) shapeCasts_S128_S1x128 j

/-- The second edge weight matrix is the argument. -/
theorem V1_w2 (c : Dev nD) : w2A (V1 m ρ) c = m ((c.tc : Thread nD τ).loc main_arg5) :=
  kept m ρ c main_arg5 (by decide)

/-- The second edge bias as a one-row matrix. -/
theorem V1_b2 (c : Dev nD) (j : Fin 128) : b2A (V1 m ρ) c (ix2 0 j)
    = (m ((c.tc : Thread nD τ).loc main_arg6) : Vec Ideal S128 .f32) (ix1 j) := by
  show W1 m ρ c (Proc.devRef .tc main_v37) (ix2 0 j) = _
  dsimp only [W1, hostOps0]
  after_results
  exact row_of_vec (W0 m ρ c (Proc.devRef .tc main_arg6)) shapeCasts_S128_S1x128 j

/-- The first gate weight matrix is the argument. -/
theorem V1_wc1 (c : Dev nD) : wc1A (V1 m ρ) c = m ((c.tc : Thread nD τ).loc main_arg7) :=
  kept m ρ c main_arg7 (by decide)

/-- The first gate bias as a one-row matrix. -/
theorem V1_bc1 (c : Dev nD) (j : Fin 128) : bc1A (V1 m ρ) c (ix2 0 j)
    = (m ((c.tc : Thread nD τ).loc main_arg8) : Vec Ideal S128 .f32) (ix1 j) := by
  show W1 m ρ c (Proc.devRef .tc main_v38) (ix2 0 j) = _
  dsimp only [W1, hostOps0]
  after_results
  exact row_of_vec (W0 m ρ c (Proc.devRef .tc main_arg8)) shapeCasts_S128_S1x128 j

/-- The second gate weight matrix (one column) is the argument. -/
theorem V1_wc2 (c : Dev nD) : wc2A (V1 m ρ) c = m ((c.tc : Thread nD τ).loc main_arg9) :=
  kept m ρ c main_arg9 (by decide)

/-- The second gate bias as a one-by-one matrix. -/
theorem V1_bc2 (c : Dev nD) : bc2A (V1 m ρ) c (ix2 0 0)
    = (m ((c.tc : Thread nD τ).loc main_arg10) : Vec Ideal S1 .f32) (ix1 0) := by
  show W1 m ρ c (Proc.devRef .tc main_v39) (ix2 0 0) = _
  dsimp only [W1, hostOps0]
  after_results
  exact one_of_vec (W0 m ρ c (Proc.devRef .tc main_arg10)) shapeCasts_S1_S1x1

end Cert.KernelIdeal.HostK0

end
-- ==== Proof.HostK1.lean ====
/-
  What the host operations between the two regions hand to the node region, and the program's two results. The
  aggregated messages are the scatter-add, by each edge's first endpoint, of the message array the edge region left —
  the reference's own scatter-add, of the same index array —; the first node weight matrix arrives cut into its two row
  ranges, each bias vector as a one-row matrix. The first result is the array the node region leaves; the second is the
  coordinates plus the scatter-add of the weighted differences the edge region left.
-/
import proofs.«168844_j68195490726193_1_alg».proof.Proof.Arrays
import proofs.«168844_j68195490726193_1_alg».proof.Proof.RefRead
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostK1

open Idealize.ShloMosaic Idealize.ShloMosaic.TcCoe Idealize.ShloMosaic.ValueIdx Idealize.SL.Sem
open Cert.KernelIdeal Cert.KernelIdeal.Gen Cert.KernelIdeal.GenP Cert.KernelIdeal.Arr
open Idealize.ShloMosaic.Pipeline (Dat Cfg Window)

variable (m : (ℓ : Loc nD τ sig) → Buf (Elt Ideal) ℓ) (ρ : Dev nD → PrngReg)

/-! ## The buffers the host stretch reads -/

/-- Argument 1 is still the launch's when the edge region has run: nothing writes an argument. -/
theorem W2_arg1 (c : Dev nD) : W2 m ρ c (Proc.devRef .tc main_arg1) = m ((c.tc : Thread nD τ).loc main_arg1) :=
  calc W2 m ρ c (Proc.devRef .tc main_arg1)
    _ = W3 m ρ c (Proc.devRef .tc main_arg1) := (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = W4 m ρ c (Proc.devRef .tc main_arg1) := (W4_of_ne m ρ c main_arg1 (by decide)).symm
    _ = m ((c.tc : Thread nD τ).loc main_arg1) := W4_main_arg1 m ρ c

/-- Argument 11 is still the launch's when the edge region has run: nothing writes an argument. -/
theorem W2_arg11 (c : Dev nD) : W2 m ρ c (Proc.devRef .tc main_arg11) = m ((c.tc : Thread nD τ).loc main_arg11) :=
  calc W2 m ρ c (Proc.devRef .tc main_arg11)
    _ = W3 m ρ c (Proc.devRef .tc main_arg11) := (StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = W4 m ρ c (Proc.devRef .tc main_arg11) := (W4_of_ne m ρ c main_arg11 (by decide)).symm
    _ = m ((c.tc : Thread nD τ).loc main_arg11) := W4_main_arg11 m ρ c

/-- Argument 12 is still the launch's when the edge region has run: nothing writes an argument. -/
theorem W2_arg12 (c : Dev nD) : W2 m ρ c (Proc.devRef .tc main_arg12) = m ((c.tc : Thread nD τ).loc main_arg12) :=
  calc W2 m ρ c (Proc.devRef .tc main_arg12)
    _ = W3 m ρ c (Proc.devRef .tc main_arg12) := (StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = W4 m ρ c (Proc.devRef .tc main_arg12) := (W4_of_ne m ρ c main_arg12 (by decide)).symm
    _ = m ((c.tc : Thread nD τ).loc main_arg12) := W4_main_arg12 m ρ c

/-- Argument 14 is still the launch's when the edge region has run: nothing writes an argument. -/
theorem W2_arg14 (c : Dev nD) : W2 m ρ c (Proc.devRef .tc main_arg14) = m ((c.tc : Thread nD τ).loc main_arg14) :=
  calc W2 m ρ c (Proc.devRef .tc main_arg14)
    _ = W3 m ρ c (Proc.devRef .tc main_arg14) := (StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = W4 m ρ c (Proc.devRef .tc main_arg14) := (W4_of_ne m ρ c main_arg14 (by decide)).symm
    _ = m ((c.tc : Thread nD τ).loc main_arg14) := W4_main_arg14 m ρ c

/-- The first index row, as the launch's host operations cut it out of the edge-index argument: the reference's own
    first index row. -/
theorem W2_v1 (c : Dev nD) : W2 m ρ c (Proc.devRef .tc main_v1)
    = Cert.ReferenceIdeal.ReadP.val_main_v1 (F := Ideal) (m ((c.tc : Thread nD τ).loc main_arg2)) := by
  refine (W2_of_ne m ρ c main_v1 (by decide)).trans ?_
  show StableHlo.after hostOps0 (W0 m ρ c) (Proc.devRef .tc main_v1) = _
  dsimp only [hostOps0]
  after_results_simp
  rfl

/-! ## The node region's input arrays and the two results -/

/-- The node features are the argument. -/
theorem V3_h (c : Dev nD) : hA (V3 m ρ) c = m ((c.tc : Thread nD τ).loc main_arg0) :=
  ((W4_arr m ρ c 0).trans (((dat1 (V3 m ρ) c).arrAt_in 0 rfl _).trans (A_eq1 (V3 m ρ) c 0))).symm.trans (W4_main_arg0 m ρ c)

/-- The aggregated messages: the scatter-add of the edge region's message array. -/
theorem V3_mi (c : Dev nD) : miA (V3 m ρ) c
    = Host.scatterAdd (F := Ideal) (φ := .f32) Cert.ReferenceIdeal.scatter_S50000x128_S600000x1_S600000x128_1_0_0_1 (Cert.ReferenceIdeal.ReadP.val_main_v67 (F := Ideal))
        (Cert.ReferenceIdeal.ReadP.val_main_v68 (F := Ideal) (m ((c.tc : Thread nD τ).loc main_arg2)))
        ((dat0 (V1 m ρ) c).arrAt 13 cfg0.N) := by
  have h13 : W2 m ρ c (Proc.devRef .tc main_v40_0) = (dat0 (V1 m ρ) c).arrAt 13 cfg0.N := W2_arr m ρ c 13
  show StableHlo.after hostOps1 (W2 m ρ c) (Proc.devRef .tc main_v43) = _
  dsimp only [hostOps1]
  after_results
  rw [W2_v1 m ρ c, h13]
  rfl

/-- Rows 0 … 127 of the first node weight matrix. -/
theorem V3_wh (c : Dev nD) (k j : Fin 128) : whA (V3 m ρ) c (ix2 k j)
    = (m ((c.tc : Thread nD τ).loc main_arg11) : Vec Ideal S256x128 .f32) (ix2 ⟨k.val, by omega⟩ j) := by
  have e : (W3 m ρ c (Proc.devRef .tc main_v48) : S128x128.Idx → EReal)
      = extractStridedSlice S128x128 ![0, 0] (m ((c.tc : Thread nD τ).loc main_arg11) : Vec Ideal S256x128 .f32)
          slices_S256x128_S128x128_0_0 := by
    show StableHlo.after hostOps1 (W2 m ρ c) (Proc.devRef .tc main_v48) = _
    dsimp only [hostOps1]
    after_results
    rw [W2_arg11 m ρ c]
  show (W3 m ρ c (Proc.devRef .tc main_v48) : S128x128.Idx → EReal) (ix2 k j) = _
  rw [e]
  exact extractStridedSlice_apply ![0, 0] _ slices_S256x128_S128x128_0_0 (ix2 k j) (ix2 ⟨k.val, by omega⟩ j) (fun a => match a with
    | ⟨0, _⟩ => by show k.val = 0 + k.val; omega
    | ⟨1, _⟩ => by show j.val = 0 + j.val; omega)

/-- Rows 128 … 255 of the first node weight matrix. -/
theorem V3_wm (c : Dev nD) (k j : Fin 128) : wmA (V3 m ρ) c (ix2 k j)
    = (m ((c.tc : Thread nD τ).loc main_arg11) : Vec Ideal S256x128 .f32) (ix2 ⟨128 + k.val, by omega⟩ j) := by
  have e : (W3 m ρ c (Proc.devRef .tc main_v49) : S128x128.Idx → EReal)
      = extractStridedSlice S128x128 ![128, 0] (m ((c.tc : Thread nD τ).loc main_arg11) : Vec Ideal S256x128 .f32)
          slices_S256x128_S128x128_128_0 := by
    show StableHlo.after hostOps1 (W2 m ρ c) (Proc.devRef .tc main_v49) = _
    dsimp only [hostOps1]
    after_results
    rw [W2_arg11 m ρ c]
  show (W3 m ρ c (Proc.devRef .tc main_v49) : S128x128.Idx → EReal) (ix2 k j) = _
  rw [e]
  exact extractStridedSlice_apply ![128, 0] _ slices_S256x128_S128x128_128_0 (ix2 k j) (ix2 ⟨128 + k.val, by omega⟩ j) (fun a => match a with
    | ⟨0, _⟩ => by show 128 + k.val = 128 + k.val; rfl
    | ⟨1, _⟩ => by show j.val = 0 + j.val; omega)

/-- The first node bias as a one-row matrix. -/
theorem V3_bn1 (c : Dev nD) (j : Fin 128) : bn1A (V3 m ρ) c (ix2 0 j)
    = (m ((c.tc : Thread nD τ).loc main_arg12) : Vec Ideal S128 .f32) (ix1 j) := by
  have e : (W3 m ρ c (Proc.devRef .tc main_v50) : S1x128.Idx → EReal)
      = shapeCast S1x128 (m ((c.tc : Thread nD τ).loc main_arg12) : Vec Ideal S128 .f32) shapeCasts_S128_S1x128 := by
    show StableHlo.after hostOps1 (W2 m ρ c) (Proc.devRef .tc main_v50) = _
    dsimp only [hostOps1]
    after_results
    rw [W2_arg12 m ρ c]
    rfl
  show (W3 m ρ c (Proc.devRef .tc main_v50) : S1x128.Idx → EReal) (ix2 0 j) = _
  rw [e]
  exact shapeCast_a_1a_apply _ shapeCasts_S128_S1x128 0 j

/-- The second node weight matrix is the argument. -/
theorem V3_wn2 (c : Dev nD) : wn2A (V3 m ρ) c = m ((c.tc : Thread nD τ).loc main_arg13) :=
  ((W4_arr m ρ c 5).trans (((dat1 (V3 m ρ) c).arrAt_in 5 rfl _).trans (A_eq1 (V3 m ρ) c 5))).symm.trans (W4_main_arg13 m ρ c)

/-- The second node bias as a one-row matrix. -/
theorem V3_bn2 (c : Dev nD) (j : Fin 128) : bn2A (V3 m ρ) c (ix2 0 j)
    = (m ((c.tc : Thread nD τ).loc main_arg14) : Vec Ideal S128 .f32) (ix1 j) := by
  have e : (W3 m ρ c (Proc.devRef .tc main_v51) : S1x128.Idx → EReal)
      = shapeCast S1x128 (m ((c.tc : Thread nD τ).loc main_arg14) : Vec Ideal S128 .f32) shapeCasts_S128_S1x128 := by
    show StableHlo.after hostOps1 (W2 m ρ c) (Proc.devRef .tc main_v51) = _
    dsimp only [hostOps1]
    after_results
    rw [W2_arg14 m ρ c]
    rfl
  show (W3 m ρ c (Proc.devRef .tc main_v51) : S1x128.Idx → EReal) (ix2 0 j) = _
  rw [e]
  exact shapeCast_a_1a_apply _ shapeCasts_S128_S1x128 0 j

/-- The first result is the array the node region leaves. -/
theorem res_h (c : Dev nD) : W4 m ρ c (Proc.devRef .tc main_v52) = (dat1 (V3 m ρ) c).arrAt 7 cfg1.N :=
  W4_arr m ρ c 7

/-- The second result: the coordinates plus the scatter-add of the edge region's weighted differences. -/
theorem res_coord (c : Dev nD) : W4 m ρ c (Proc.devRef .tc main_v47)
    = addf (F := Ideal) (φ := .f32) (m ((c.tc : Thread nD τ).loc main_arg1))
        (Host.scatterAdd (F := Ideal) (φ := .f32) Cert.ReferenceIdeal.scatter_S50000x3_S600000x1_S600000x3_1_0_0_1 (Cert.ReferenceIdeal.ReadP.val_main_v63 (F := Ideal))
          (Cert.ReferenceIdeal.ReadP.val_main_v64 (F := Ideal) (m ((c.tc : Thread nD τ).loc main_arg2)))
          ((dat0 (V1 m ρ) c).arrAt 14 cfg0.N)) := by
  have h14 : W2 m ρ c (Proc.devRef .tc main_v40_1) = (dat0 (V1 m ρ) c).arrAt 14 cfg0.N := W2_arr m ρ c 14
  refine (W4_of_ne m ρ c main_v47 (by decide)).trans ?_
  show StableHlo.after hostOps1 (W2 m ρ c) (Proc.devRef .tc main_v47) = _
  dsimp only [hostOps1]
  after_results_simp
  rw [W2_arg1 m ρ c, W2_v1 m ρ c, h14]
  rfl

end Cert.KernelIdeal.HostK1

end
-- ==== Proof.RefEdge.lean ====
/-
  The reference's edge stage, read at one entry.

  The reference joins the two gathered feature rows and the squared length into one row of 257 entries and contracts it
  with the whole first weight matrix; entry `(e, j)` of its message array is `Cert.Spec.msg` of edge `e`'s gathered
  rows, the weight matrix cut into its three row ranges (`Cert.Spec.h1_of_joined`), and jax's expansion of the logistic
  function is the logistic function (`Cert.Spec.logistic_expand`). Entry `(e, d)` of the weighted difference is
  `Cert.Spec.wd` of the same rows.
-/
import proofs.«168844_j68195490726193_1_alg».proof.Proof.RefRead
import proofs.«168844_j68195490726193_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefEdge

open Idealize.ShloMosaic Idealize.ShloMosaic.ValueIdx Cert.ReferenceIdeal Cert.ReferenceIdeal.ReadP

variable (x0 : (⟨S50000x128, .f32⟩ : BufTy).Contents (Elt Ideal)) (x1 : (⟨S50000x3, .f32⟩ : BufTy).Contents (Elt Ideal))
  (x2 : (⟨S2x600000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x1, .f32⟩ : BufTy).Contents (Elt Ideal)) (x10 : (⟨S1, .f32⟩ : BufTy).Contents (Elt Ideal))

/-! ## The squared length -/

/-- The reference's squared length of edge `e`: its initial value is the extended real zero, so the sum over the three
    coordinates of the squared difference is `Cert.Spec.rad`. -/
theorem rad_ref (e : Fin 600000) :
    val_main_v21 (F := Ideal) x1 x2 (ix2 e (0 : Fin 1)) = Cert.Spec.rad (fun d => val_main_v18 (F := Ideal) x1 x2 (ix2 e d)) := by
  rw [val_main_v21_apply, val_main_v20_apply, val_main_cst_apply]
  unfold Cert.Spec.rad
  rw [Ideal.ofBits_def, Ideal.ofBits_zero_f32, zero_add]
  refine Finset.sum_congr rfl fun k _ => ?_
  rw [val_main_v19_apply, Ideal.mulf_def]
  have hi : idx_main_v20 (idx_main_v21 (ix2 e (0 : Fin 1))) k = ix2 e k :=
    funext fun a => Fin.ext (by match a with | ⟨0, _⟩ => rfl | ⟨1, _⟩ => rfl)
  rw [hi]

/-! ## The joined row of 257 entries -/

/-- The joined row's entries below 128 are the first gathered row. -/
theorem cat_left (e : Fin 600000) (k : Fin 128) :
    val_main_v41 (F := Ideal) x0 x1 x2 (ix2 e (⟨k.val, by omega⟩ : Fin 257)) = val_main_v33 (F := Ideal) x0 x2 (ix2 e k) := by
  unfold val_main_v41
  exact concatenate_apply_piece (t := S600000x257) 1 [⟨S600000x128, val_main_v33 (F := Ideal) x0 x2⟩, ⟨S600000x128, val_main_v40 (F := Ideal) x0 x2⟩,
      ⟨S600000x1, val_main_v21 (F := Ideal) x1 x2⟩] Cert.ReferenceIdeal.Gen.concatenates_S600000x128_S600000x128_S600000x1_S600000x257_d1
    (ix2 e ⟨k.val, by omega⟩) 0 (by show (0 : Nat) < 3; omega) S600000x128 _ rfl rfl 0 rfl (ix2 e k)
    (fun b hb => by match b with | ⟨0, _⟩ => rfl | ⟨1, _⟩ => exact absurd (Fin.ext rfl) hb)
    (by show 0 + k.val = k.val; omega)

/-- The joined row's entries from 128 to 255 are the second gathered row. -/
theorem cat_mid (e : Fin 600000) (k : Fin 128) :
    val_main_v41 (F := Ideal) x0 x1 x2 (ix2 e (⟨128 + k.val, by omega⟩ : Fin 257)) = val_main_v40 (F := Ideal) x0 x2 (ix2 e k) := by
  unfold val_main_v41
  exact concatenate_apply_piece (t := S600000x257) 1 [⟨S600000x128, val_main_v33 (F := Ideal) x0 x2⟩, ⟨S600000x128, val_main_v40 (F := Ideal) x0 x2⟩,
      ⟨S600000x1, val_main_v21 (F := Ideal) x1 x2⟩] Cert.ReferenceIdeal.Gen.concatenates_S600000x128_S600000x128_S600000x1_S600000x257_d1
    (ix2 e ⟨128 + k.val, by omega⟩) 1 (by show (1 : Nat) < 3; omega) S600000x128 _ rfl rfl 128 rfl (ix2 e k)
    (fun b hb => by match b with | ⟨0, _⟩ => rfl | ⟨1, _⟩ => exact absurd (Fin.ext rfl) hb)
    (by show 128 + k.val = 128 + k.val; rfl)

/-- The joined row's last entry is the squared length. -/
theorem cat_last (e : Fin 600000) :
    val_main_v41 (F := Ideal) x0 x1 x2 (ix2 e (⟨256, by omega⟩ : Fin 257)) = val_main_v21 (F := Ideal) x1 x2 (ix2 e (0 : Fin 1)) := by
  unfold val_main_v41
  exact concatenate_apply_piece (t := S600000x257) 1 [⟨S600000x128, val_main_v33 (F := Ideal) x0 x2⟩, ⟨S600000x128, val_main_v40 (F := Ideal) x0 x2⟩,
      ⟨S600000x1, val_main_v21 (F := Ideal) x1 x2⟩] Cert.ReferenceIdeal.Gen.concatenates_S600000x128_S600000x128_S600000x1_S600000x257_d1
    (ix2 e ⟨256, by omega⟩) 2 (by show (2 : Nat) < 3; omega) S600000x1 _ rfl rfl 256 rfl (ix2 e (0 : Fin 1))
    (fun b hb => by match b with | ⟨0, _⟩ => rfl | ⟨1, _⟩ => exact absurd (Fin.ext rfl) hb)
    (by show 256 + (0 : Fin 1).val = 256; rfl)

/-! ## The activation -/

/-- `x · (1 / (1 + e^(-x)))`, the one read off its binary value, is `x · σ(x)`. -/
theorem silu_expand (x : EReal) :
    FloatOps.mulf (F := Ideal) (φ := .f32) x (FloatOps.hostDivf (FloatOps.ofBits (F := Ideal) .f32 0x3F800000#32)
      (FloatOps.addf (FloatOps.ofBits (F := Ideal) .f32 0x3F800000#32) (FloatOps.hostUnary .exp (FloatOps.hostNegf x))))
      = Cert.Spec.silu x := by
  rw [Ideal.mulf_def, Ideal.hostDivf_def, Ideal.ofBits_def, Ideal.ofBits_one_f32, Ideal.addf_def, Ideal.hostUnary_exp_def,
    Ideal.hostNegf_def, Ideal.negf_def, Cert.Spec.logistic_expand]
  rfl

/-- The reference's activation of `val_main_v45`, expanded into negation, exponential, `1 + ·`, `1 / ·` and a product, is `Cert.Spec.silu`. -/
theorem v46_silu (i : S600000x128.Idx) :
    val_main_v46 (F := Ideal) x0 x1 x2 x3 x4 i = Cert.Spec.silu (val_main_v45 (F := Ideal) x0 x1 x2 x3 x4 i) := by
  rw [val_main_v46_apply, val_main_call0_v5_apply, val_main_call0_v4_apply, val_main_call0_cst_0_apply,
    val_main_call0_v3_apply, val_main_call0_v2_apply, val_main_call0_cst_apply, val_main_call0_v1_apply,
    val_main_call0_v0_apply]
  exact silu_expand _

/-- The reference's activation of `val_main_v50`, expanded into negation, exponential, `1 + ·`, `1 / ·` and a product, is `Cert.Spec.silu`. -/
theorem v51_silu (i : S600000x128.Idx) :
    val_main_v51 (F := Ideal) x0 x1 x2 x3 x4 x5 x6 i = Cert.Spec.silu (val_main_v50 (F := Ideal) x0 x1 x2 x3 x4 x5 x6 i) := by
  rw [val_main_v51_apply, val_main_call1_v5_apply, val_main_call1_v4_apply, val_main_call1_cst_0_apply,
    val_main_call1_v3_apply, val_main_call1_v2_apply, val_main_call1_cst_apply, val_main_call1_v1_apply,
    val_main_call1_v0_apply]
  exact silu_expand _

/-- The reference's activation of `val_main_v55`, expanded into negation, exponential, `1 + ·`, `1 / ·` and a product, is `Cert.Spec.silu`. -/
theorem v56_silu (i : S600000x128.Idx) :
    val_main_v56 (F := Ideal) x0 x1 x2 x3 x4 x5 x6 x7 x8 i = Cert.Spec.silu (val_main_v55 (F := Ideal) x0 x1 x2 x3 x4 x5 x6 x7 x8 i) := by
  rw [val_main_v56_apply, val_main_call2_v5_apply, val_main_call2_v4_apply, val_main_call2_cst_0_apply,
    val_main_call2_v3_apply, val_main_call2_v2_apply, val_main_call2_cst_apply, val_main_call2_v1_apply,
    val_main_call2_v0_apply]
  exact silu_expand _

/-! ## The first edge layer -/

/-- The reference's first edge layer at `(e, j)`: the contraction of the joined row with the whole weight matrix, plus the
    bias, is the three-part form (`Cert.Spec.h1_of_joined`). -/
theorem h1_ref (e : Fin 600000) (j : Fin 128) :
    val_main_v45 (F := Ideal) x0 x1 x2 x3 x4 (ix2 e j)
      = Cert.Spec.h1 (fun k => val_main_v33 (F := Ideal) x0 x2 (ix2 e k)) (fun k => val_main_v40 (F := Ideal) x0 x2 (ix2 e k))
          (fun d => val_main_v18 (F := Ideal) x1 x2 (ix2 e d))
          (fun k j => x3 (ix2 ⟨k.val, by omega⟩ j)) (fun k j => x3 (ix2 ⟨128 + k.val, by omega⟩ j))
          (fun j => x3 (ix2 ⟨256, by omega⟩ j)) (fun j => x4 (ix1 j)) j := by
  rw [val_main_v45_apply, val_main_v42_apply, val_main_v44_apply, val_main_v43_apply, Ideal.addf_def]
  have hb : idx_main_v43 (idx_main_v44 (ix2 e j)) = ix1 j :=
    funext fun a => Fin.ext (by match a with | ⟨0, _⟩ => rfl)
  have hL : ∀ k : Fin 257, lidx_main_v42 (ix2 e j) k = ix2 e k := fun k =>
    funext fun a => Fin.ext (by match a with | ⟨0, _⟩ => rfl | ⟨1, _⟩ => rfl)
  have hR : ∀ k : Fin 257, ridx_main_v42 (ix2 e j) k = ix2 k j := fun k =>
    funext fun a => Fin.ext (by match a with | ⟨0, _⟩ => rfl | ⟨1, _⟩ => rfl)
  rw [hb]
  simp only [hL, hR]
  exact Cert.Spec.h1_of_joined _ _ _ (fun k j => x3 (ix2 k j)) (fun j => x4 (ix1 j))
    (fun k => val_main_v41 (F := Ideal) x0 x1 x2 (ix2 e k)) (cat_left x0 x1 x2 e) (cat_mid x0 x1 x2 e)
    ((cat_last x0 x1 x2 e).trans (rad_ref x1 x2 e)) j

/-- The reference's message array at `(e, j)`. -/
theorem msg_ref (e : Fin 600000) (j : Fin 128) :
    val_main_v51 (F := Ideal) x0 x1 x2 x3 x4 x5 x6 (ix2 e j)
      = Cert.Spec.msg (fun k => val_main_v33 (F := Ideal) x0 x2 (ix2 e k)) (fun k => val_main_v40 (F := Ideal) x0 x2 (ix2 e k))
          (fun d => val_main_v18 (F := Ideal) x1 x2 (ix2 e d))
          (fun k j => x3 (ix2 ⟨k.val, by omega⟩ j)) (fun k j => x3 (ix2 ⟨128 + k.val, by omega⟩ j))
          (fun j => x3 (ix2 ⟨256, by omega⟩ j)) (fun j => x4 (ix1 j)) (fun k j => x5 (ix2 k j)) (fun j => x6 (ix1 j)) j := by
  rw [v51_silu]
  unfold Cert.Spec.msg Cert.Spec.lin
  refine congrArg Cert.Spec.silu ?_
  rw [val_main_v50_apply, val_main_v47_apply, val_main_v49_apply, val_main_v48_apply, Ideal.addf_def]
  have hb : idx_main_v48 (idx_main_v49 (ix2 e j)) = ix1 j :=
    funext fun a => Fin.ext (by match a with | ⟨0, _⟩ => rfl)
  rw [hb]
  refine congrArg (· + x6 (ix1 j)) (Finset.sum_congr rfl fun k _ => ?_)
  have hL : lidx_main_v47 (ix2 e j) k = ix2 e k :=
    funext fun a => Fin.ext (by match a with | ⟨0, _⟩ => rfl | ⟨1, _⟩ => rfl)
  have hR : ridx_main_v47 (ix2 e j) k = ix2 k j :=
    funext fun a => Fin.ext (by match a with | ⟨0, _⟩ => rfl | ⟨1, _⟩ => rfl)
  rw [hL, hR, v46_silu, h1_ref]

/-! ## The coordinate gate and the unit difference -/

/-- The reference's first gate layer at `(e, k)`: a linear layer on the message row of edge `e`. -/
theorem lin2_ref (e : Fin 600000) (k : Fin 128) :
    val_main_v55 (F := Ideal) x0 x1 x2 x3 x4 x5 x6 x7 x8 (ix2 e k)
      = Cert.Spec.lin (fun k => val_main_v51 (F := Ideal) x0 x1 x2 x3 x4 x5 x6 (ix2 e k)) (fun k j => x7 (ix2 k j)) (fun j => x8 (ix1 j)) k := by
  rw [val_main_v55_apply, val_main_v52_apply, val_main_v54_apply, val_main_v53_apply, Ideal.addf_def]
  unfold Cert.Spec.lin
  have hb : idx_main_v53 (idx_main_v54 (ix2 e k)) = ix1 k :=
    funext fun a => Fin.ext (by match a with | ⟨0, _⟩ => rfl)
  rw [hb]
  refine congrArg (· + x8 (ix1 k)) (Finset.sum_congr rfl fun k' _ => ?_)
  have hL : lidx_main_v52 (ix2 e k) k' = ix2 e k' :=
    funext fun a => Fin.ext (by match a with | ⟨0, _⟩ => rfl | ⟨1, _⟩ => rfl)
  have hR : ridx_main_v52 (ix2 e k) k' = ix2 k' k :=
    funext fun a => Fin.ext (by match a with | ⟨0, _⟩ => rfl | ⟨1, _⟩ => rfl)
  rw [hL, hR]

/-- The reference's gate of edge `e`, a column of one entry, from its message row. -/
theorem gate_ref (e : Fin 600000) :
    val_main_v60 (F := Ideal) x0 x1 x2 x3 x4 x5 x6 x7 x8 x9 x10 (ix2 e (0 : Fin 1))
      = Cert.Spec.gate (fun k => val_main_v51 (F := Ideal) x0 x1 x2 x3 x4 x5 x6 (ix2 e k)) (fun k j => x7 (ix2 k j)) (fun j => x8 (ix1 j)) (fun k => x9 (ix2 k 0)) (x10 (ix1 0)) := by
  rw [val_main_v60_apply, val_main_v57_apply, val_main_v59_apply, val_main_v58_apply, Ideal.addf_def]
  unfold Cert.Spec.gate
  have hb : idx_main_v58 (idx_main_v59 (ix2 e (0 : Fin 1))) = ix1 0 :=
    funext fun a => Fin.ext (by match a with | ⟨0, _⟩ => rfl)
  rw [hb]
  refine congrArg (· + x10 (ix1 0)) (Finset.sum_congr rfl fun k _ => ?_)
  have hL : lidx_main_v57 (ix2 e (0 : Fin 1)) k = ix2 e k :=
    funext fun a => Fin.ext (by match a with | ⟨0, _⟩ => rfl | ⟨1, _⟩ => rfl)
  have hR : ridx_main_v57 (ix2 e (0 : Fin 1)) k = ix2 k 0 :=
    funext fun a => Fin.ext (by match a with | ⟨0, _⟩ => rfl | ⟨1, _⟩ => rfl)
  rw [hL, hR, v56_silu, lin2_ref]

/-- The reference's unit difference at `(e, d)`: the coordinate difference over its length plus the small constant. -/
theorem unit_ref (e : Fin 600000) (d : Fin 3) :
    val_main_v26 (F := Ideal) x1 x2 (ix2 e d) = Cert.Spec.unitDiff (fun d => val_main_v18 (F := Ideal) x1 x2 (ix2 e d)) d := by
  rw [val_main_v26_apply, val_main_v25_apply, val_main_v24_apply, val_main_v22_apply, val_main_v23_apply,
    val_main_cst_3_apply, Ideal.hostDivf_def, Ideal.addf_def, Ideal.hostUnary_sqrt_def, Ideal.ofBits_def]
  have hi : idx_main_v25 (ix2 e d) = ix2 e (0 : Fin 1) :=
    funext fun a => Fin.ext (by match a with | ⟨0, _⟩ => rfl | ⟨1, _⟩ => rfl)
  rw [hi, rad_ref]
  rfl

/-- The reference's weighted difference at `(e, d)`. -/
theorem wd_ref (e : Fin 600000) (d : Fin 3) :
    val_main_v62 (F := Ideal) x0 x1 x2 x3 x4 x5 x6 x7 x8 x9 x10 (ix2 e d)
      = Cert.Spec.wd (fun k => val_main_v33 (F := Ideal) x0 x2 (ix2 e k)) (fun k => val_main_v40 (F := Ideal) x0 x2 (ix2 e k))
          (fun d => val_main_v18 (F := Ideal) x1 x2 (ix2 e d))
          (fun k j => x3 (ix2 ⟨k.val, by omega⟩ j)) (fun k j => x3 (ix2 ⟨128 + k.val, by omega⟩ j))
          (fun j => x3 (ix2 ⟨256, by omega⟩ j)) (fun j => x4 (ix1 j)) (fun k j => x5 (ix2 k j)) (fun j => x6 (ix1 j))
          (fun k j => x7 (ix2 k j)) (fun j => x8 (ix1 j)) (fun k => x9 (ix2 k 0)) (x10 (ix1 0)) d := by
  rw [val_main_v62_apply, val_main_v61_apply, Ideal.mulf_def]
  have hi : idx_main_v61 (ix2 e d) = ix2 e (0 : Fin 1) :=
    funext fun a => Fin.ext (by match a with | ⟨0, _⟩ => rfl | ⟨1, _⟩ => rfl)
  rw [hi, unit_ref, gate_ref]
  unfold Cert.Spec.wd
  simp only [msg_ref]

end Cert.ReferenceIdeal.RefEdge

end
-- ==== Proof.RefNode.lean ====
/-
  The reference's node stage, read at one entry.

  The reference joins each node's feature row and aggregated-message row into one row of 256 entries and contracts it
  with the whole first node weight matrix; entry `(n, j)` of its result is `Cert.Spec.node` of the two rows and the
  weight matrix cut into its two row ranges (`Cert.Spec.n1_of_joined`).
-/
import proofs.«168844_j68195490726193_1_alg».proof.Proof.RefRead
import proofs.«168844_j68195490726193_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefNode

open Idealize.ShloMosaic Idealize.ShloMosaic.ValueIdx Cert.ReferenceIdeal Cert.ReferenceIdeal.ReadP

variable (x0 : (⟨S50000x128, .f32⟩ : BufTy).Contents (Elt Ideal)) (x1 : (⟨S50000x3, .f32⟩ : BufTy).Contents (Elt Ideal))
  (x2 : (⟨S2x600000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))
  (x11 : (⟨S256x128, .f32⟩ : BufTy).Contents (Elt Ideal)) (x12 : (⟨S128, .f32⟩ : BufTy).Contents (Elt Ideal))
  (x13 : (⟨S128x128, .f32⟩ : BufTy).Contents (Elt Ideal)) (x14 : (⟨S128, .f32⟩ : BufTy).Contents (Elt Ideal))

/-! ## The joined row -/

/-- Entry `k < 128` of node `n`'s joined row is entry `k` of its feature row. -/
theorem joined_left (n : Fin 50000) (k : Fin 128) :
    val_main_v70 (F := Ideal) x0 x1 x2 x3 x4 x5 x6 (ix2 n (⟨k.val, by omega⟩ : Fin 256)) = x0 (ix2 n k) := by
  unfold val_main_v70
  exact concatenate_pair_apply_left (1 : Fin S50000x256.rank) x0 (val_main_v69 (F := Ideal) x0 x1 x2 x3 x4 x5 x6)
    _ (ix2 n (⟨k.val, by omega⟩ : Fin 256)) rfl (ix2 n k)
    (fun b => match b with
      | ⟨0, _⟩ => rfl
      | ⟨1, _⟩ => rfl)

/-- Entry `128 + k` of node `n`'s joined row is entry `k` of its aggregated-message row. -/
theorem joined_right (n : Fin 50000) (k : Fin 128) :
    val_main_v70 (F := Ideal) x0 x1 x2 x3 x4 x5 x6 (ix2 n (⟨128 + k.val, by omega⟩ : Fin 256))
      = val_main_v69 (F := Ideal) x0 x1 x2 x3 x4 x5 x6 (ix2 n k) := by
  unfold val_main_v70
  exact concatenate_pair_apply_right (1 : Fin S50000x256.rank) x0 (val_main_v69 (F := Ideal) x0 x1 x2 x3 x4 x5 x6)
    _ (ix2 n (⟨128 + k.val, by omega⟩ : Fin 256)) rfl rfl (ix2 n k)
    (fun b => match b with
      | ⟨0, _⟩ => fun _ => rfl
      | ⟨1, _⟩ => fun h => absurd rfl h)
    (Nat.add_comm k.val 128)

/-! ## The first layer -/

/-- The first node layer before its activation at `(n, j)`: the 256-term contraction of the joined row, in two parts. -/
theorem first_layer (n : Fin 50000) (j : Fin 128) :
    val_main_v74 (F := Ideal) x0 x1 x2 x3 x4 x5 x6 x11 x12 (ix2 n j)
      = Cert.Spec.n1 (fun k => x0 (ix2 n k)) (fun k => val_main_v69 (F := Ideal) x0 x1 x2 x3 x4 x5 x6 (ix2 n k))
          (fun k j => x11 (ix2 ⟨k.val, by omega⟩ j)) (fun k j => x11 (ix2 ⟨128 + k.val, by omega⟩ j))
          (fun j => x12 (ix1 j)) j := by
  rw [val_main_v74_apply, val_main_v71_apply, val_main_v73_apply, val_main_v72_apply]
  have el : ∀ k : Fin 256, lidx_main_v71 (ix2 n j) k = ix2 n k := fun k => funext fun a => Fin.ext (by
    match a with
    | ⟨0, _⟩ => rfl
    | ⟨1, _⟩ => rfl)
  have er : ∀ k : Fin 256, ridx_main_v71 (ix2 n j) k = ix2 k j := fun k => funext fun a => Fin.ext (by
    match a with
    | ⟨0, _⟩ => rfl
    | ⟨1, _⟩ => rfl)
  have eb : idx_main_v72 (idx_main_v73 (ix2 n j)) = ix1 j := funext fun a => Fin.ext (by
    match a with
    | ⟨0, _⟩ => rfl)
  simp only [el, er, eb]
  exact Cert.Spec.n1_of_joined (fun k => x0 (ix2 n k))
    (fun k => val_main_v69 (F := Ideal) x0 x1 x2 x3 x4 x5 x6 (ix2 n k))
    (fun k j => x11 (ix2 k j)) (fun j => x12 (ix1 j))
    (fun k => val_main_v70 (F := Ideal) x0 x1 x2 x3 x4 x5 x6 (ix2 n k))
    (fun k => joined_left x0 x1 x2 x3 x4 x5 x6 n k) (fun k => joined_right x0 x1 x2 x3 x4 x5 x6 n k) j

/-! ## The activation -/

/-- The expanded activation of the first layer is `x · σ(x)`: the quotient `1 / (1 + e^(-x))` is the logistic function. -/
theorem activation (i : S50000x128.Idx) :
    val_main_v75 (F := Ideal) x0 x1 x2 x3 x4 x5 x6 x11 x12 i
      = Cert.Spec.silu (val_main_v74 (F := Ideal) x0 x1 x2 x3 x4 x5 x6 x11 x12 i) := by
  rw [val_main_v75_apply, val_main_call3_v5_apply, val_main_call3_v4_apply, val_main_call3_cst_0_apply,
    val_main_call3_v3_apply, val_main_call3_v2_apply, val_main_call3_cst_apply, val_main_call3_v1_apply,
    val_main_call3_v0_apply]
  simp only [Ideal.mulf_def, Ideal.hostDivf_def, Ideal.addf_def, Ideal.hostUnary_exp_def, Ideal.hostNegf_def,
    Ideal.negf_def, Ideal.ofBits_def, Ideal.ofBits_one_f32]
  rw [Cert.Spec.logistic_expand]
  rfl

/-! ## The result -/

/-- The reference's first result at `(n, j)`. -/
theorem node_ref (n : Fin 50000) (j : Fin 128) :
    val_main_v80 (F := Ideal) x0 x1 x2 x3 x4 x5 x6 x11 x12 x13 x14 (ix2 n j)
      = Cert.Spec.node (fun k => x0 (ix2 n k)) (fun k => val_main_v69 (F := Ideal) x0 x1 x2 x3 x4 x5 x6 (ix2 n k))
          (fun k j => x11 (ix2 ⟨k.val, by omega⟩ j)) (fun k j => x11 (ix2 ⟨128 + k.val, by omega⟩ j))
          (fun j => x12 (ix1 j)) (fun k j => x13 (ix2 k j)) (fun j => x14 (ix1 j)) j := by
  rw [val_main_v80_apply, val_main_v79_apply, val_main_v76_apply, val_main_v78_apply, val_main_v77_apply]
  have el : ∀ k : Fin 128, lidx_main_v76 (ix2 n j) k = ix2 n k := fun k => funext fun a => Fin.ext (by
    match a with
    | ⟨0, _⟩ => rfl
    | ⟨1, _⟩ => rfl)
  have er : ∀ k : Fin 128, ridx_main_v76 (ix2 n j) k = ix2 k j := fun k => funext fun a => Fin.ext (by
    match a with
    | ⟨0, _⟩ => rfl
    | ⟨1, _⟩ => rfl)
  have eb : idx_main_v77 (idx_main_v78 (ix2 n j)) = ix1 j := funext fun a => Fin.ext (by
    match a with
    | ⟨0, _⟩ => rfl)
  simp only [el, er, eb, activation, first_layer]
  rfl

end Cert.ReferenceIdeal.RefNode

end
-- ==== Proof.Bridge.lean ====
/-
  The idealized kernel program's two results are the reference's two result stages, as functions of the arguments.

  The message array the edge region leaves is the reference's message stage: entry by entry both are `Cert.Spec.msg` of
  the same gathered rows and the same weights (the region's inputs are the reference's own gathers and the weight
  matrix's row ranges). Likewise the weighted differences. The aggregated messages are then the same scatter-add of
  equal arrays; the node region's output is entry by entry `Cert.Spec.node` of equal rows, which is the reference's
  first result; and the second result is the same add of the coordinates and the same scatter-add of equal arrays.
-/
import proofs.«168844_j68195490726193_1_alg».proof.Proof.EdgeArr
import proofs.«168844_j68195490726193_1_alg».proof.Proof.NodeArr
import proofs.«168844_j68195490726193_1_alg».proof.Proof.HostK0
import proofs.«168844_j68195490726193_1_alg».proof.Proof.HostK1
import proofs.«168844_j68195490726193_1_alg».proof.Proof.RefEdge
import proofs.«168844_j68195490726193_1_alg».proof.Proof.RefNode

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.GenP Cert.KernelIdeal.Arr Cert.ReferenceIdeal.ReadP
open Idealize.ShloMosaic.Pipeline (Dat Cfg Window)

variable (m : (ℓ : Loc nD τ sig) → Buf (Elt Ideal) ℓ) (ρ : Dev nD → PrngReg)

/-- The edge region's message array is the reference's message stage. -/
theorem msg_eq (c : Dev nD) : (dat0 (V1 m ρ) c).arrAt 13 cfg0.N
    = val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Cert.KernelIdeal.EdgeArr.msg_array]
  funext i
  obtain ⟨e, j, rfl⟩ : ∃ (e : Fin 600000) (j : Fin 128), i = ix2 e j := ⟨i 0, i 1, eq_ix2 i⟩
  rw [Cert.ReferenceIdeal.RefEdge.msg_ref]
  show Cert.Spec.msg (fun k => hrA (V1 m ρ) c (ix2 e k)) (fun k => hcA (V1 m ρ) c (ix2 e k)) (fun d => dfA (V1 m ρ) c (ix2 e d))
      (fun k j => wrA (V1 m ρ) c (ix2 k j)) (fun k j => wcA (V1 m ρ) c (ix2 k j)) (fun j => wradA (V1 m ρ) c (ix2 0 j))
      (fun j => b1A (V1 m ρ) c (ix2 0 j)) (fun k j => w2A (V1 m ρ) c (ix2 k j)) (fun j => b2A (V1 m ρ) c (ix2 0 j)) j = _
  have e_wr : (fun (k j : Fin 128) => wrA (V1 m ρ) c (ix2 k j)) = fun k j => (m ((c.tc : Thread nD τ).loc main_arg3) : Vec Ideal S257x128 .f32) (ix2 ⟨k.val, by omega⟩ j) :=
    funext fun k => funext fun j => Cert.KernelIdeal.HostK0.V1_wr m ρ c k j
  have e_wc : (fun (k j : Fin 128) => wcA (V1 m ρ) c (ix2 k j)) = fun k j => (m ((c.tc : Thread nD τ).loc main_arg3) : Vec Ideal S257x128 .f32) (ix2 ⟨128 + k.val, by omega⟩ j) :=
    funext fun k => funext fun j => Cert.KernelIdeal.HostK0.V1_wc m ρ c k j
  have e_wrad : (fun (j : Fin 128) => wradA (V1 m ρ) c (ix2 0 j)) = fun j => (m ((c.tc : Thread nD τ).loc main_arg3) : Vec Ideal S257x128 .f32) (ix2 ⟨256, by omega⟩ j) :=
    funext fun j => Cert.KernelIdeal.HostK0.V1_wrad m ρ c j
  have e_b1 : (fun (j : Fin 128) => b1A (V1 m ρ) c (ix2 0 j)) = fun j => (m ((c.tc : Thread nD τ).loc main_arg4) : Vec Ideal S128 .f32) (ix1 j) :=
    funext fun j => Cert.KernelIdeal.HostK0.V1_b1 m ρ c j
  have e_b2 : (fun (j : Fin 128) => b2A (V1 m ρ) c (ix2 0 j)) = fun j => (m ((c.tc : Thread nD τ).loc main_arg6) : Vec Ideal S128 .f32) (ix1 j) :=
    funext fun j => Cert.KernelIdeal.HostK0.V1_b2 m ρ c j
  rw [e_wr, e_wc, e_wrad, e_b1, e_b2, Cert.KernelIdeal.HostK0.V1_hr, Cert.KernelIdeal.HostK0.V1_hc, Cert.KernelIdeal.HostK0.V1_df, Cert.KernelIdeal.HostK0.V1_w2]

/-- The edge region's weighted differences are the reference's. -/
theorem wd_eq (c : Dev nD) : (dat0 (V1 m ρ) c).arrAt 14 cfg0.N
    = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.KernelIdeal.EdgeArr.wd_array]
  funext i
  obtain ⟨e, d, rfl⟩ : ∃ (e : Fin 600000) (d : Fin 3), i = ix2 e d := ⟨i 0, i 1, eq_ix2 i⟩
  rw [Cert.ReferenceIdeal.RefEdge.wd_ref]
  show Cert.Spec.wd (fun k => hrA (V1 m ρ) c (ix2 e k)) (fun k => hcA (V1 m ρ) c (ix2 e k)) (fun d => dfA (V1 m ρ) c (ix2 e d))
      (fun k j => wrA (V1 m ρ) c (ix2 k j)) (fun k j => wcA (V1 m ρ) c (ix2 k j)) (fun j => wradA (V1 m ρ) c (ix2 0 j))
      (fun j => b1A (V1 m ρ) c (ix2 0 j)) (fun k j => w2A (V1 m ρ) c (ix2 k j)) (fun j => b2A (V1 m ρ) c (ix2 0 j))
      (fun k j => wc1A (V1 m ρ) c (ix2 k j)) (fun j => bc1A (V1 m ρ) c (ix2 0 j)) (fun k => wc2A (V1 m ρ) c (ix2 k 0))
      (bc2A (V1 m ρ) c (ix2 0 0)) d = _
  have e_wr : (fun (k j : Fin 128) => wrA (V1 m ρ) c (ix2 k j)) = fun k j => (m ((c.tc : Thread nD τ).loc main_arg3) : Vec Ideal S257x128 .f32) (ix2 ⟨k.val, by omega⟩ j) :=
    funext fun k => funext fun j => Cert.KernelIdeal.HostK0.V1_wr m ρ c k j
  have e_wc : (fun (k j : Fin 128) => wcA (V1 m ρ) c (ix2 k j)) = fun k j => (m ((c.tc : Thread nD τ).loc main_arg3) : Vec Ideal S257x128 .f32) (ix2 ⟨128 + k.val, by omega⟩ j) :=
    funext fun k => funext fun j => Cert.KernelIdeal.HostK0.V1_wc m ρ c k j
  have e_wrad : (fun (j : Fin 128) => wradA (V1 m ρ) c (ix2 0 j)) = fun j => (m ((c.tc : Thread nD τ).loc main_arg3) : Vec Ideal S257x128 .f32) (ix2 ⟨256, by omega⟩ j) :=
    funext fun j => Cert.KernelIdeal.HostK0.V1_wrad m ρ c j
  have e_b1 : (fun (j : Fin 128) => b1A (V1 m ρ) c (ix2 0 j)) = fun j => (m ((c.tc : Thread nD τ).loc main_arg4) : Vec Ideal S128 .f32) (ix1 j) :=
    funext fun j => Cert.KernelIdeal.HostK0.V1_b1 m ρ c j
  have e_b2 : (fun (j : Fin 128) => b2A (V1 m ρ) c (ix2 0 j)) = fun j => (m ((c.tc : Thread nD τ).loc main_arg6) : Vec Ideal S128 .f32) (ix1 j) :=
    funext fun j => Cert.KernelIdeal.HostK0.V1_b2 m ρ c j
  have e_bc1 : (fun (j : Fin 128) => bc1A (V1 m ρ) c (ix2 0 j)) = fun j => (m ((c.tc : Thread nD τ).loc main_arg8) : Vec Ideal S128 .f32) (ix1 j) :=
    funext fun j => Cert.KernelIdeal.HostK0.V1_bc1 m ρ c j
  rw [e_wr, e_wc, e_wrad, e_b1, e_b2, e_bc1, Cert.KernelIdeal.HostK0.V1_hr, Cert.KernelIdeal.HostK0.V1_hc, Cert.KernelIdeal.HostK0.V1_df, Cert.KernelIdeal.HostK0.V1_w2,
    Cert.KernelIdeal.HostK0.V1_wc1, Cert.KernelIdeal.HostK0.V1_wc2, Cert.KernelIdeal.HostK0.V1_bc2]

/-- The aggregated messages are the reference's: one scatter-add of equal arrays. -/
theorem mi_eq (c : Dev nD) : miA (V3 m ρ) c
    = val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Cert.KernelIdeal.HostK1.V3_mi, msg_eq]
  rfl

/-- THE FIRST RESULT is the reference's first result stage. -/
theorem out0_eq (c : Dev nD) : W4 m ρ c (Proc.devRef .tc main_v52)
    = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.HostK1.res_h, Cert.KernelIdeal.NodeArr.node_array]
  funext i
  obtain ⟨n, j, rfl⟩ : ∃ (n : Fin 50000) (j : Fin 128), i = ix2 n j := ⟨i 0, i 1, eq_ix2 i⟩
  rw [Cert.ReferenceIdeal.RefNode.node_ref]
  show Cert.Spec.node (fun k => hA (V3 m ρ) c (ix2 n k)) (fun k => miA (V3 m ρ) c (ix2 n k))
      (fun k j => whA (V3 m ρ) c (ix2 k j)) (fun k j => wmA (V3 m ρ) c (ix2 k j)) (fun j => bn1A (V3 m ρ) c (ix2 0 j))
      (fun k j => wn2A (V3 m ρ) c (ix2 k j)) (fun j => bn2A (V3 m ρ) c (ix2 0 j)) j = _
  have e_wh : (fun (k j : Fin 128) => whA (V3 m ρ) c (ix2 k j)) = fun k j => (m ((c.tc : Thread nD τ).loc main_arg11) : Vec Ideal S256x128 .f32) (ix2 ⟨k.val, by omega⟩ j) :=
    funext fun k => funext fun j => Cert.KernelIdeal.HostK1.V3_wh m ρ c k j
  have e_wm : (fun (k j : Fin 128) => wmA (V3 m ρ) c (ix2 k j)) = fun k j => (m ((c.tc : Thread nD τ).loc main_arg11) : Vec Ideal S256x128 .f32) (ix2 ⟨128 + k.val, by omega⟩ j) :=
    funext fun k => funext fun j => Cert.KernelIdeal.HostK1.V3_wm m ρ c k j
  have e_bn1 : (fun (j : Fin 128) => bn1A (V3 m ρ) c (ix2 0 j)) = fun j => (m ((c.tc : Thread nD τ).loc main_arg12) : Vec Ideal S128 .f32) (ix1 j) :=
    funext fun j => Cert.KernelIdeal.HostK1.V3_bn1 m ρ c j
  have e_bn2 : (fun (j : Fin 128) => bn2A (V3 m ρ) c (ix2 0 j)) = fun j => (m ((c.tc : Thread nD τ).loc main_arg14) : Vec Ideal S128 .f32) (ix1 j) :=
    funext fun j => Cert.KernelIdeal.HostK1.V3_bn2 m ρ c j
  rw [e_wh, e_wm, e_bn1, e_bn2, Cert.KernelIdeal.HostK1.V3_h, mi_eq, Cert.KernelIdeal.HostK1.V3_wn2]

/-- THE SECOND RESULT is the reference's second result stage. -/
theorem out1_eq (c : Dev nD) : W4 m ρ c (Proc.devRef .tc main_v47)
    = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.KernelIdeal.HostK1.res_coord, wd_eq]
  rfl

end Cert.Bridge

end
-- ==== Proof.lean ====
/-
  The certificate of the message-passing layer.

  The three frames: the two kernel programs' by the frame certificate of their two regions, the reference's by its run.
  The idealization ledger is empty. The equality of results: the idealized kernel program ends with its two result
  buffers at the last boundary's contents, which are the reference's two result stages as functions of the arguments
  (`Cert.Bridge`); the reference ends with its results at those stages of arguments that agree.
-/
import proofs.«168844_j68195490726193_1_alg».proof.Defs
import proofs.«168844_j68195490726193_1_alg».proof.Proof.Gen.Kernel
import proofs.«168844_j68195490726193_1_alg».proof.Proof.Gen.KernelIdeal
import proofs.«168844_j68195490726193_1_alg».proof.Proof.Gen.ReferenceIdeal
import proofs.«168844_j68195490726193_1_alg».proof.Proof.Gen.Pre_finite_inputs
import proofs.«168844_j68195490726193_1_alg».proof.Proof.FrameKernel
import proofs.«168844_j68195490726193_1_alg».proof.Proof.FrameKernelIdeal
import proofs.«168844_j68195490726193_1_alg».proof.Proof.KernelRun
import proofs.«168844_j68195490726193_1_alg».proof.Proof.RefFold
import proofs.«168844_j68195490726193_1_alg».proof.Proof.Bridge
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts := fun m ρ _ =>
  (θ_run Cert.ReferenceIdeal.defs _ _).mono (fun _ h c => (h c).2.2) (Cert.ReferenceIdeal.Fold.run (F := Ideal) m ρ)

/-- Both programs end with equal results: the kernel program's are the last boundary's contents at the two result
    buffers, the reference's its two result stages, of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.GenP.W4 m ρ c (Proc.devRef .tc Cert.KernelIdeal.main_v52),
    fun c => Cert.KernelIdeal.GenP.W4 m ρ c (Proc.devRef .tc Cert.KernelIdeal.main_v47),
    Cert.KernelIdeal.RunV.run_results (F := Ideal) m ρ, ?_⟩
  refine (θ_run Cert.ReferenceIdeal.defs _ _).mono (fun r h c => ?_) (Cert.ReferenceIdeal.Fold.run (F := Ideal) m' ρ')
  obtain ⟨h0, h1, hrest⟩ := h c
  obtain ⟨g0, g1, g2, g3, g4, g5, g6, g7, g8, g9, g10, g11, g12, g13, g14⟩ := hagree c
  refine ⟨h0.trans ?_, h1.trans ?_, hrest⟩
  · rw [g0, g1, g2, g3, g4, g5, g6, g11, g12, g13, g14]
    exact (Cert.Bridge.out0_eq m ρ c).symm
  · rw [g0, g1, g2, g3, g4, g5, g6, g7, g8, g9, g10]
    exact (Cert.Bridge.out1_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
